-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S3x64 : Shape := ⟨2, ![3, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩
abbrev S1x1600000 : Shape := ⟨2, ![1, 1600000]⟩
abbrev S1600000 : Shape := ⟨1, ![1600000]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_v43 : IVec S_ 1) (main_v47 : IVec S1600000 1) (main_v51 : IVec S1600000 1) : IVec S_ 1 :=
  let main_v52 : IVec S1600000 1 := andi main_v47 main_v51
  let main_c_18 : IVec S_ 1 := constantI S_ 1 1#1
  let main_v53 : IVec S_ 1 := (fun x v => Host.reduce IntOp.andi x v reducesTo_S1600000_S_d0 h_S_) main_v52 main_c_18
  let main_v54 : IVec S_ 1 := andi main_v43 main_v53
  main_v54

def fn_part2 {F : FTy → Type} [FloatOps F] (main_arg1 : IVec S2x1600000 32) (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : IVec S1x1600000 32 := (extractStridedSlice S1x1600000 ![0, 0] · slices_S2x1600000_S1x1600000_0_0) main_arg1
  let main_v45 : IVec S1600000 32 := shapeCast S1600000 main_v44 shapeCasts_S1x1600000_S1600000
  let main_c_16 : IVec S_ 32 := constantI S_ 32 0#32
  let main_v46 : IVec S1600000 32 := broadcastInDim S1600000 ![] bcast_S_S1600000 main_c_16
  let main_v47 : IVec S1600000 1 := cmpi .sge main_v45 main_v46
  let main_v48 : IVec S1x1600000 32 := (extractStridedSlice S1x1600000 ![0, 0] · slices_S2x1600000_S1x1600000_0_0) main_arg1
  let main_v49 : IVec S1600000 32 := shapeCast S1600000 main_v48 shapeCasts_S1x1600000_S1600000
  let main_c_17 : IVec S_ 32 := constantI S_ 32 100000#32
  let main_v50 : IVec S1600000 32 := broadcastInDim S1600000 ![] bcast_S_S1600000 main_c_17
  let main_v51 : IVec S1600000 1 := cmpi .slt main_v49 main_v50
  fn_part3 (F := F) main_v43 main_v47 main_v51

def fn_part1 {F : FTy → Type} [FloatOps F] (main_arg1 : IVec S2x1600000 32) (main_arg5 : FVec F S64 .f32) (main_arg6 : FVec F S64x64 .f32) (main_arg7 : FVec F S64 .f32) (main_arg8 : FVec F S64x1 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_v33

def fn {F : FTy → Type} [FloatOps F] (main_arg0 : FVec F S100000x3 .f32) (main_arg1 : IVec S2x1600000 32) (main_arg2 : FVec F S3x64 .f32) (main_arg3 : FVec F S64 .f32) (main_arg4 : FVec F S64x64 .f32) (main_arg5 : FVec F S64 .f32) (main_arg6 : FVec F S64x64 .f32) (main_arg7 : FVec F S64 .f32) (main_arg8 : FVec F S64x1 .f32) (main_arg9 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x64 .f32 := Host.absf main_arg2
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_arg8 main_arg9 main_v13 main_v16
-- ==== Kernel.lean ====
abbrev S100000x3 : Shape := ⟨2, ![100000, 3]⟩
abbrev S2x1600000 : Shape := ⟨2, ![2, 1600000]⟩
abbrev S3x64 : Shape := ⟨2, ![3, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x3 : Shape := ⟨2, ![5000, 3]⟩
abbrev S5000x64 : Shape := ⟨2, ![5000, 64]⟩
abbrev S1x1 : Shape := ⟨2, ![1, 1]⟩
abbrev S1700000x64 : Shape := ⟨2, ![1700000, 64]⟩
abbrev S1x64 : Shape := ⟨2, ![1, 64]⟩
abbrev S64x128 : Shape := ⟨2, ![64, 128]⟩
abbrev S128 : Shape := ⟨1, ![128]⟩
abbrev S100000x128 : Shape := ⟨2, ![100000, 128]⟩
abbrev S5000x128 : Shape := ⟨2, ![5000, 128]⟩
abbrev S1x128 : Shape := ⟨2, ![1, 128]⟩
abbrev S100000x1 : Shape := ⟨2, ![100000, 1]⟩

abbrev nBuf : Space → Nat
  | .hbm => 158
  | .vmem => 24
  | .smem => 0
  | _ => 0

abbrev hbmTy0_0 (i : Nat) : BufTy := match i % 128 with
  | 0 => ⟨S100000x3, .f32⟩
  | 1 => ⟨S2x1600000, .i32⟩
  | 2 => ⟨S3x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x1, .f32⟩
  | 9 => ⟨S1, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x64, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1, .i32⟩
  | 60 => ⟨S_, .i32⟩
  | 61 => ⟨S1700000x1, .i32⟩
  | 62 => ⟨S1700000x1, .i1⟩
  | 63 => ⟨S1x1, .i32⟩
  | 64 => ⟨S1700000x1, .i32⟩
  | 65 => ⟨S1700000x1, .i1⟩
  | 66 => ⟨S1700000x1, .i1⟩
  | 67 => ⟨S_, .i1⟩
  | 68 => ⟨S1700000, .i1⟩
  | 69 => ⟨S1700000x64, .f32⟩
  | 70 => ⟨S1700000x64, .i1⟩
  | 71 => ⟨S_, .f32⟩
  | 72 => ⟨S1700000x64, .f32⟩
  | 73 => ⟨S1700000x64, .f32⟩
  | 74 => ⟨S1700000x1, .f32⟩
  | 75 => ⟨S1700000x64, .f32⟩
  | 76 => ⟨S1700000x64, .f32⟩
  | 77 => ⟨S_, .f32⟩
  | 78 => ⟨S100000x64, .f32⟩
  | 79 => ⟨S1700000x1, .i32⟩
  | 80 => ⟨S100000x64, .f32⟩
  | 81 => ⟨S100000x64, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1, .i32⟩
  | 91 => ⟨S_, .i32⟩
  | 92 => ⟨S1700000x1, .i32⟩
  | 93 => ⟨S1700000x1, .i1⟩
  | 94 => ⟨S1x1, .i32⟩
  | 95 => ⟨S1700000x1, .i32⟩
  | 96 => ⟨S1700000x1, .i1⟩
  | 97 => ⟨S1700000x1, .i1⟩
  | 98 => ⟨S_, .i1⟩
  | 99 => ⟨S1700000, .i1⟩
  | 100 => ⟨S1700000x64, .f32⟩
  | 101 => ⟨S1700000x64, .i1⟩
  | 102 => ⟨S_, .f32⟩
  | 103 => ⟨S1700000x64, .f32⟩
  | 104 => ⟨S1700000x64, .f32⟩
  | 105 => ⟨S1700000x1, .f32⟩
  | 106 => ⟨S1700000x64, .f32⟩
  | 107 => ⟨S1700000x64, .f32⟩
  | 108 => ⟨S_, .f32⟩
  | 109 => ⟨S100000x64, .f32⟩
  | 110 => ⟨S1700000x1, .i32⟩
  | 111 => ⟨S100000x64, .f32⟩
  | 112 => ⟨S100000x64, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1, .i32⟩
  | 122 => ⟨S_, .i32⟩
  | 123 => ⟨S1700000x1, .i32⟩
  | 124 => ⟨S1700000x1, .i1⟩
  | 125 => ⟨S1x1, .i32⟩
  | 126 => ⟨S1700000x1, .i32⟩
  | 127 => ⟨S1700000x1, .i1⟩
  | _ => ⟨S100000x3, .f32⟩

abbrev hbmTy0_1 (i : Nat) : BufTy := match i % 128 with
  | 0 => ⟨S1700000x1, .i1⟩
  | 1 => ⟨S_, .i1⟩
  | 2 => ⟨S1700000, .i1⟩
  | 3 => ⟨S1700000x64, .f32⟩
  | 4 => ⟨S1700000x64, .i1⟩
  | 5 => ⟨S_, .f32⟩
  | 6 => ⟨S1700000x64, .f32⟩
  | 7 => ⟨S1700000x64, .f32⟩
  | 8 => ⟨S1700000x1, .f32⟩
  | 9 => ⟨S1700000x64, .f32⟩
  | 10 => ⟨S1700000x64, .f32⟩
  | 11 => ⟨S_, .f32⟩
  | 12 => ⟨S100000x64, .f32⟩
  | 13 => ⟨S1700000x1, .i32⟩
  | 14 => ⟨S100000x64, .f32⟩
  | 15 => ⟨S_, .f32⟩
  | 16 => ⟨S64x128, .f32⟩
  | 17 => ⟨S64, .f32⟩
  | 18 => ⟨S_, .i32⟩
  | 19 => ⟨S1, .i32⟩
  | 20 => ⟨S64x128, .f32⟩
  | 21 => ⟨S_, .f32⟩
  | 22 => ⟨S128, .f32⟩
  | 23 => ⟨S_, .f32⟩
  | 24 => ⟨S_, .i32⟩
  | 25 => ⟨S1, .i32⟩
  | 26 => ⟨S128, .f32⟩
  | 27 => ⟨S100000x128, .f32⟩
  | 28 => ⟨S100000x1, .f32⟩
  | 29 => ⟨S100000, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S5000x3, .f32⟩
  | .local _ .vmem, ⟨1, _⟩ => ⟨S5000x3, .f32⟩
  | .local _ .vmem, ⟨2, _⟩ => ⟨S3x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S64, .f32⟩
  | .local _ .vmem, ⟨20, _⟩ => ⟨S64x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_6 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_call2_c : Ref sig .tc := ⟨.hbm, 82, rfl⟩
abbrev main_call2_v0 : Ref sig .tc := ⟨.hbm, 83, rfl⟩
abbrev main_call2_v1 : Ref sig .tc := ⟨.hbm, 84, rfl⟩
abbrev main_call2_c_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_c_1 : Ref sig .tc := ⟨.hbm, 90, rfl⟩
abbrev main_call2_c_2 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_c_3 : Ref sig .tc := ⟨.hbm, 98, rfl⟩
abbrev main_call2_v12 : Ref sig .tc := ⟨.hbm, 99, rfl⟩
abbrev main_call2_v13 : Ref sig .tc := ⟨.hbm, 100, rfl⟩
abbrev main_call2_v14 : Ref sig .tc := ⟨.hbm, 101, rfl⟩
abbrev main_call2_cst : Ref sig .tc := ⟨.hbm, 102, rfl⟩
abbrev main_call2_v15 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_cst_7 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_call3_c : Ref sig .tc := ⟨.hbm, 113, rfl⟩
abbrev main_call3_v0 : Ref sig .tc := ⟨.hbm, 114, rfl⟩
abbrev main_call3_v1 : Ref sig .tc := ⟨.hbm, 115, rfl⟩
abbrev main_call3_c_0 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_call3_v5 : Ref sig .tc := ⟨.hbm, 120, rfl⟩
abbrev main_call3_c_1 : Ref sig .tc := ⟨.hbm, 121, rfl⟩
abbrev main_call3_c_2 : Ref sig .tc := ⟨.hbm, 122, rfl⟩
abbrev main_call3_v6 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_call3_v11 : Ref sig .tc := ⟨.hbm, 128, rfl⟩
abbrev main_call3_c_3 : Ref sig .tc := ⟨.hbm, 129, rfl⟩
abbrev main_call3_v12 : Ref sig .tc := ⟨.hbm, 130, rfl⟩
abbrev main_call3_v13 : Ref sig .tc := ⟨.hbm, 131, rfl⟩
abbrev main_call3_v14 : Ref sig .tc := ⟨.hbm, 132, rfl⟩
abbrev main_call3_cst : Ref sig .tc := ⟨.hbm, 133, rfl⟩
abbrev main_call3_v15 : Ref sig .tc := ⟨.hbm, 134, rfl⟩
abbrev main_v47 : Ref sig .tc := ⟨.hbm, 135, rfl⟩
abbrev main_v48 : Ref sig .tc := ⟨.hbm, 136, rfl⟩
abbrev main_v49 : Ref sig .tc := ⟨.hbm, 137, rfl⟩
abbrev main_v50 : Ref sig .tc := ⟨.hbm, 138, rfl⟩
abbrev main_cst_8 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_cst_9 : Ref sig .tc := ⟨.hbm, 143, rfl⟩
abbrev main_v54 : Ref sig .tc := ⟨.hbm, 144, rfl⟩
abbrev main_v55 : Ref sig .tc := ⟨.hbm, 145, rfl⟩
abbrev main_c_10 : Ref sig .tc := ⟨.hbm, 146, rfl⟩
abbrev main_v56 : Ref sig .tc := ⟨.hbm, 147, rfl⟩
abbrev main_v57 : Ref sig .tc := ⟨.hbm, 148, rfl⟩
abbrev main_cst_11 : Ref sig .tc := ⟨.hbm, 149, rfl⟩
abbrev main_v58 : Ref sig .tc := ⟨.hbm, 150, rfl⟩
abbrev main_v59 : Ref sig .tc := ⟨.hbm, 151, rfl⟩
abbrev main_c_12 : Ref sig .tc := ⟨.hbm, 152, rfl⟩
abbrev main_v60 : Ref sig .tc := ⟨.hbm, 153, rfl⟩
abbrev main_v61 : Ref sig .tc := ⟨.hbm, 154, rfl⟩
abbrev main_v62 : Ref sig .tc := ⟨.hbm, 155, rfl⟩
abbrev main_v63 : Ref sig .tc := ⟨.hbm, 156, rfl⟩
abbrev main_v64 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S5000x64_S5000x64_0_0 : ∀ a, (![0, 0] : Fin 2 → Nat) a + S5000x64.size a ≤ S5000x64.size a
  h_S5000x64 : 0 < S5000x64.numel
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x64_0 : S1700000.BroadcastsInDim S1700000x64 (![0] : Fin 1 → Fin S1700000x64.rank)
  bcast_S_S1700000x64 : S_.BroadcastsInDim S1700000x64 (![] : Fin 0 → Fin S1700000x64.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S_S64x128 : S_.BroadcastsInDim S64x128 (![] : Fin 0 → Fin S64x128.rank)
  shapeCasts_S64x1_S64 : S64x1.ShapeCasts S64
  bcast_S_S1 : S_.BroadcastsInDim S1 (![] : Fin 0 → Fin S1.rank)
  bcast_S_S128 : S_.BroadcastsInDim S128 (![] : Fin 0 → Fin S128.rank)
  shapeCasts_S1_S_ : S1.ShapeCasts S_
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S100000x128_S100000x1_0_0 : S100000x128.Slices ![0, 0] S100000x1
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x3_S3x64_S5000x64_1_0_0_1_n_n_wf : DotDims.WF S5000x3 S3x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  scatter_S64x128_S1_S64_0_1_1_0_wf : ScatterDims.WF S64x128 S1 S64 [0] [1] [1] 0
  scatter_S128_S1_S__n_0_0_0_wf : ScatterDims.WF S128 S1 S_ [] [0] [0] 0
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x3_S3x64_S5000x64_1_0_0_1_n_n : DotDims S5000x3 S3x64 S5000x64 where
  lhsContracting := [1]
  rhsContracting := [0]
  lhsNonContracting := [0]
  rhsNonContracting := [1]
  lhsBatch := []
  rhsBatch := []
  wf := dot_S5000x3_S3x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S64x128_S1_S64_0_1_1_0 : ScatterDims S64x128 S1 S64 where
  updateWindowDims := [0]
  insertedWindowDims := [1]
  scatterDimsToOperandDims := [1]
  indexVectorDim := 0
  wf := scatter_S64x128_S1_S64_0_1_1_0_wf
def scatter_S128_S1_S__n_0_0_0 : ScatterDims S128 S1 S_ where
  updateWindowDims := []
  insertedWindowDims := [0]
  scatterDimsToOperandDims := [0]
  indexVectorDim := 0
  wf := scatter_S128_S1_S__n_0_0_0_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v53) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S64x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S3x64 : Shape := ⟨2, ![3, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 121
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S3x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x1, .f32⟩
  | .hbm, ⟨84, _⟩ => ⟨S1700000x64, .f32⟩
  | .hbm, ⟨85, _⟩ => ⟨S1700000x64, .f32⟩
  | .hbm, ⟨86, _⟩ => ⟨S_, .f32⟩
  | .hbm, ⟨87, _⟩ => ⟨S100000x64, .f32⟩
  | .hbm, ⟨88, _⟩ => ⟨S1700000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000x64, .f32⟩
  | .hbm, ⟨106, _⟩ => ⟨S1700000x1, .f32⟩
  | .hbm, ⟨107, _⟩ => ⟨S1700000x64, .f32⟩
  | .hbm, ⟨108, _⟩ => ⟨S1700000x64, .f32⟩
  | .hbm, ⟨109, _⟩ => ⟨S_, .f32⟩
  | .hbm, ⟨110, _⟩ => ⟨S100000x64, .f32⟩
  | .hbm, ⟨111, _⟩ => ⟨S1700000x1, .i32⟩
  | .hbm, ⟨112, _⟩ => ⟨S100000x64, .f32⟩
  | .hbm, ⟨113, _⟩ => ⟨S1x64, .f32⟩
  | .hbm, ⟨114, _⟩ => ⟨S100000x64, .f32⟩
  | .hbm, ⟨115, _⟩ => ⟨S100000x64, .f32⟩
  | .hbm, ⟨116, _⟩ => ⟨S100000x1, .f32⟩
  | .hbm, ⟨117, _⟩ => ⟨S1x1, .f32⟩
  | .hbm, ⟨118, _⟩ => ⟨S100000x1, .f32⟩
  | .hbm, ⟨119, _⟩ => ⟨S100000x1, .f32⟩
  | .hbm, ⟨120, _⟩ => ⟨S100000, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x3_S3x64_S100000x64_1_0_0_1_n_n_wf : DotDims.WF S100000x3 S3x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Spec.lean ====
/-
  The network both programs compute, written once as whole-array operations: a three-layer graph convolution
  with self loops and symmetric degree normalisation, then a linear head.

  From the edge list `e` (row 0 the sources, row 1 the targets) the N self loops are appended (`src`, `dst`);
  `deg` counts the edges arriving at a node, `dinv = deg^(-1/2)` where `deg > 0` and `0` elsewhere, and an edge's
  weight is `norm = dinv[src] · dinv[dst]`. One aggregation `agg e h` gathers the rows `h[src]`, scales each by its
  edge's weight and sums them into the rows `dst`. A layer is `lin a b W = relu(a + b) · W` (the first one
  `lin0 x W = x · W`, no bias before it), and the head is `(a + b) · Wh + bh` flattened to one number per node.
-/
import proofs.«419092_j35880156790903_2_alg».proof.Proof.Gen.ReferenceIdeal

noncomputable section

namespace Cert.GNN

open Idealize.ShloMosaic Cert.ReferenceIdeal Cert.ReferenceIdeal.Gen

variable {F : FTy → Type} [FloatOps F]

/-- The edges' source nodes, the self loops `0 … N-1` appended. -/
def src (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' target nodes, the self loops appended. -/
def dst (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A vector of node numbers as a column of gather start indices: a negative number counts from the end. -/
def wrap (v : IVec S1700000 32) : IVec S1700000x1 32 :=
  broadcastInDim S1700000x1 ![0] bcast_S1700000_S1700000x1_0 (select (cmpi .slt (v) (broadcastInDim S1700000 ![] bcast_S_S1700000 (constantI S_ 32 0#32))) (addi (v) (broadcastInDim S1700000 ![] bcast_S_S1700000 (constantI S_ 32 100000#32))) (v))

/-- The number of edges (self loop included) arriving at each node. -/
def deg (e : IVec S2x1600000 32) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (dst e)) (broadcastInDim S1700000 ![] bcast_S_S1700000 (constant S_ .f32 0x3F800000#32))

/-- `deg^(-1/2)` where the degree is positive, `0` elsewhere. -/
def dinv (e : IVec S2x1600000 32) : FVec F S100000 .f32 :=
  select (cmpf .ogt (deg (F := F) e) (broadcastInDim S100000 ![] bcast_S_S100000 (constant S_ .f32 0x00000000#32))) (Host.rsqrt (deg (F := F) e)) (broadcastInDim S100000 ![] bcast_S_S100000 (id (constant S_ .f32 0x00000000#32)))

/-- An edge's weight: the product of its two endpoints' `dinv`. -/
def norm (e : IVec S2x1600000 32) : FVec F S1700000 .f32 :=
  mulf (Host.gather gather_S100000_S1700000x1_S1700000_n_0_n_n_0_1_1 (dinv (F := F) e) (wrap (src e))) (Host.gather gather_S100000_S1700000x1_S1700000_n_0_n_n_0_1_1 (dinv (F := F) e) (wrap (dst e)))

/-- One aggregation: row `h[src]` of every edge, scaled by the edge's weight, summed into row `dst`. -/
def agg (e : IVec S2x1600000 32) (h : FVec F S100000x64 .f32) : FVec F S100000x64 .f32 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (dst e)) (mulf (Host.gather gather_S100000x64_S1700000x1_S1700000x64_1_0_n_n_0_1_164 (h) (wrap (src e))) (broadcastInDim S1700000x64 ![0, 1] bcast_S1700000x1_S1700000x64_0_1 (broadcastInDim S1700000x1 ![0] bcast_S1700000_S1700000x1_0 (norm (F := F) e))))

/-- A bias vector repeated down the N rows. -/
def bias (b : FVec F S64 .f32) : FVec F S100000x64 .f32 :=
  broadcastInDim S100000x64 ![0, 1] bcast_S1x64_S100000x64_0_1 (broadcastInDim S1x64 ![1] bcast_S64_S1x64_1 (b))

/-- The first layer's projection `x · W`. -/
def lin0 (x : FVec F S100000x3 .f32) (W : FVec F S3x64 .f32) : FVec F S100000x64 .f32 :=
  Host.dotGeneral dot_S100000x3_S3x64_S100000x64_1_0_0_1_n_n none (x) (W)

/-- A later layer's projection `relu(a + b) · W`. -/
def lin (a : FVec F S100000x64 .f32) (b : FVec F S64 .f32) (W : FVec F S64x64 .f32) : FVec F S100000x64 .f32 :=
  Host.dotGeneral dot_S100000x64_S64x64_S100000x64_1_0_0_1_n_n none (maximumf (addf (a) (bias b)) (broadcastInDim S100000x64 ![] bcast_S_S100000x64 (constant S_ .f32 0x00000000#32))) (W)

/-- The head `(a + b) · Wh + bh`, one number per node. -/
def head (a : FVec F S100000x64 .f32) (b : FVec F S64 .f32) (Wh : FVec F S64x1 .f32) (bh : FVec F S1 .f32) : FVec F S100000 .f32 :=
  shapeCast _ (addf (Host.dotGeneral dot_S100000x64_S64x1_S100000x1_1_0_0_1_n_n none (addf (a) (bias b)) (Wh)) (broadcastInDim S100000x1 ![0, 1] bcast_S1x1_S100000x1_0_1 (broadcastInDim S1x1 ![1] bcast_S1_S1x1_1 (bh)))) shapeCasts_S100000x1_S100000

/-- The whole network. -/
def result (x : FVec F S100000x3 .f32) (e : IVec S2x1600000 32) (W1 : FVec F S3x64 .f32) (b1 : FVec F S64 .f32)
    (W2 : FVec F S64x64 .f32) (b2 : FVec F S64 .f32) (W3 : FVec F S64x64 .f32) (b3 : FVec F S64 .f32)
    (Wh : FVec F S64x1 .f32) (bh : FVec F S1 .f32) : FVec F S100000 .f32 :=
  head (agg e (lin (agg e (lin (agg e (lin0 x W1)) b1 W2)) b2 W3)) b3 Wh bh

end Cert.GNN

end
-- ==== Proof.Head128.lean ====
/-
  The head as the kernel computes it: the 64×1 head matrix laid in column 0 of a zero 64×128 matrix (`wpad`), the head
  bias in entry 0 of a zero vector of 128 (`bpad`), and `head128 a b Wp bp`, the 128 numbers per node
  `(a + b) · Wp + bp`, of which only column 0 is kept.
-/
import proofs.«419092_j35880156790903_2_alg».proof.Proof.Gen.KernelIdeal
import proofs.«419092_j35880156790903_2_alg».proof.Proof.Spec
import Idealize.ShloMosaic.Lib.ValueIdx

noncomputable section

open scoped BigOperators

namespace Cert.GNN

open Idealize.ShloMosaic Idealize.ShloMosaic.ValueIdx Cert.KernelIdeal Cert.KernelIdeal.Gen

variable {F : FTy → Type} [FloatOps F]

/-- The head matrix in column 0 of a zero 64×128 matrix. -/
def wpad (Wh : FVec F S64x1 .f32) : FVec F S64x128 .f32 :=
  Host.scatter scatter_S64x128_S1_S64_0_1_1_0 (fun _ b => b) (broadcastInDim S64x128 ![] bcast_S_S64x128 (constant S_ .f32 0x00000000#32)) (broadcastInDim S1 ![] bcast_S_S1 (constantI S_ 32 0#32)) (shapeCast S64 Wh shapeCasts_S64x1_S64)

/-- The head bias in entry 0 of a zero vector of 128. -/
def bpad (bh : FVec F S1 .f32) : FVec F S128 .f32 :=
  Host.scatter scatter_S128_S1_S__n_0_0_0 (fun _ b => b) (broadcastInDim S128 ![] bcast_S_S128 (constant S_ .f32 0x00000000#32)) (broadcastInDim S1 ![] bcast_S_S1 (constantI S_ 32 0#32)) (shapeCast S_ bh shapeCasts_S1_S_)

/-- Per node `i` and lane `l`: `Σ_k (a[i,k] + b[k]) · Wp[k,l] + bp[l]`. -/
def head128 (a : FVec Ideal S100000x64 .f32) (b : FVec Ideal S64 .f32) (Wp : FVec Ideal S64x128 .f32) (bp : FVec Ideal S128 .f32) :
    FVec Ideal S100000x128 .f32 :=
  fun i => (∑ k : Fin 64, (a (ix2 (i 0) k) + b (ix1 k)) * Wp (ix2 k (i 1))) + bp (ix1 (i 1))

end Cert.GNN

end
-- ==== Proof.Take.lean ====
/-
  The row gathers of the three aggregations. The kernel's host code reads rows with `take`, which guards a gather: a negative
  index `s` is first wrapped to `s + N`, a row whose wrapped index falls outside `0 … N-1` is replaced by a fill value, and
  every other row is the gathered one. The specification has the gather alone. They agree once every index names a node,
  `0 ≤ s < N` (`InRange`): such an index is not negative, so the wrap leaves it alone; it passes both range tests, so the
  one-bit mask (an `and` over the single column of the index matrix) is 1 in every row and the select keeps the gathered row.
  `src_inRange` gets `InRange` for the source indices from the precondition: its last conjunct says that the edge list's
  row 0 lies in `0 … N-1`, and the appended self loops are the numbers `0 … N-1` themselves.
-/
import proofs.«419092_j35880156790903_2_alg».proof.Defs
import proofs.«419092_j35880156790903_2_alg».proof.Proof.Gen.KernelIdeal.Launch
import proofs.«419092_j35880156790903_2_alg».proof.Proof.Gen.Pre_finite_inputs
import proofs.«419092_j35880156790903_2_alg».proof.Proof.Spec
import Idealize.ShloMosaic.Lib.StableHlo.Run
import Idealize.ShloMosaic.Lib.StableHlo.Predicate
import Idealize.ShloMosaic.Lib.ReduceAll
import Idealize.ShloMosaic.Lib.ValueIdx
import Idealize.ShloMosaic.Lib.Pipeline.Value

set_option maxRecDepth 16384

noncomputable section

namespace Cert.GNN

open Idealize.ShloMosaic Idealize.ShloMosaic.ValueIdx Idealize.SL.Sem
open Cert.KernelIdeal Cert.KernelIdeal.Gen

/-- Every entry of a vector of node numbers names a node: `0 ≤ s[i] < N`. -/
def InRange (s : IVec S1700000 32) : Prop := ∀ i, (s i).toNat < 100000

/-! ## One-bit folds and small words -/

/-- A left fold by `and` from 1 over words that are all 1 stays 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, IntOp.andi_eq_one.2 ⟨rfl, rfl⟩]
    exact foldl_andi_one f hf l

/-- A reduction by `and` from 1 of an array of ones is 1 at every result index. -/
theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, x i = 1#1) : Host.reduce IntOp.andi x init h hu j = 1#1 := by
  rw [Host.reduce_eq_foldl, hi]
  exact foldl_andi_one x hx _

/-- A word below `N` is not negative, is at least 0 and at most `N - 1`, all read signed. -/
theorem word_facts {a : BitVec 32} (ha : a.toNat < 100000) :
    IntOp.cmpi .slt a 0#32 = 0#1 ∧ IntOp.cmpi .sge a 0#32 = 1#1 ∧ IntOp.cmpi .sle a 99999#32 = 1#1 := by
  have h31 : a.toNat < 2 ^ 31 := by omega
  have z31 : (0#32 : BitVec 32).toNat < 2 ^ 31 := by decide
  have n31 : (99999#32 : BitVec 32).toNat < 2 ^ 31 := by decide
  have hn : (99999#32 : BitVec 32).toNat = 99999 := by decide
  refine ⟨eq_zero_of_ne_one fun h => ?_, (StableHlo.Predicate.sge_iff_toNat h31 z31).2 (Nat.zero_le _),
    (StableHlo.Predicate.sle_iff_toNat h31 n31).2 (by rw [hn]; omega)⟩
  exact absurd ((StableHlo.Predicate.slt_iff_toNat h31 z31).1 h) (Nat.not_lt_zero _)

/-! ## The index column -/

/-- On node numbers in range the wrap-around of negative numbers does nothing: the column is the vector itself. -/
theorem wrap_of_inRange (s : IVec S1700000 32) (hs : InRange s) :
    wrap s = broadcastInDim S1700000x1 ![0] bcast_S1700000_S1700000x1_0 s := by
  unfold wrap
  congr 1
  funext k
  show Scalar.select (IntOp.cmpi .slt (s k) 0#32) (IntOp.addi (s k) 100000#32) (s k) = s k
  rw [(word_facts (hs k)).1]
  exact select_zero _ _

/-- Every entry of the column passes the range test `0 ≤ · ≤ N - 1`. -/
theorem mask_elem (s : IVec S1700000 32) (hs : InRange s) (i : S1700000x1.Idx) :
    (andi (cmpi .sge (wrap s) (broadcastInDim S1700000x1 ![] bcast_S_S1700000x1 (constantI S_ 32 0#32)))
      (cmpi .sle (wrap s) (broadcastInDim S1700000x1 ![0, 1] bcast_S1x1_S1700000x1_0_1
        (broadcastInDim S1x1 ![1] bcast_S1_S1x1_1 (constantI S1 32 99999#32))))) i = 1#1 := by
  obtain ⟨k, hk⟩ : ∃ k : S1700000.Idx, wrap s i = s k := by
    rw [wrap_of_inRange s hs]; exact ⟨_, rfl⟩
  show IntOp.andi (IntOp.cmpi .sge (wrap s i) 0#32) (IntOp.cmpi .sle (wrap s i) 99999#32) = 1#1
  rw [hk, (word_facts (hs k)).2.1, (word_facts (hs k)).2.2]
  exact IntOp.andi_eq_one.2 ⟨rfl, rfl⟩

/-- A select whose mask, one bit per row, is all ones keeps its first operand. -/
theorem select_rows_one {α : Type} (mk : IVec S1700000 1) (hm : ∀ p, mk p = 1#1) (a b : S1700000x64.Idx → α) :
    select (broadcastInDim S1700000x64 ![0] bcast_S1700000_S1700000x64_0 mk) a b = a := by
  funext j
  rw [select_apply]
  show Scalar.select (mk _) _ _ = _
  rw [hm]
  exact select_one _ _

/-- Moving a value to a typed reference's buffer type and back is the identity. -/
theorem ofBuf_toBuf {Val : EltTy → Type} {T : BufTy} (x : StableHlo.TRef sig T) (v : T.Contents Val) :
    x.ofBuf (x.toBuf v) = v := by
  obtain ⟨r, ty_eq, _, _⟩ := x
  subst ty_eq
  rfl

/-! ## The precondition's range test -/

/-- A word that tests `0 ≤ a` and `a < N`, both signed, is below `N` read unsigned. -/
theorem toNat_lt_of_cmp {a : BitVec 32} (h0 : IntOp.cmpi .sge a 0#32 = 1#1) (h1 : IntOp.cmpi .slt a 100000#32 = 1#1) :
    a.toNat < 100000 := by
  have h31 : a.toNat < 2 ^ 31 := by have := (Scalar.nonneg_iff a).1 h0; omega
  have n31 : (100000#32 : BitVec 32).toNat < 2 ^ 31 := by decide
  have hn : (100000#32 : BitVec 32).toNat = 100000 := by decide
  have := (StableHlo.Predicate.slt_iff_toNat h31 n31).1 h1
  omega

/-- Under the precondition every source index (self loops included) names a node. -/
theorem src_inRange (m : (ℓ : Loc nD τ sig) → Buf (Elt Ideal) ℓ) (hpre : Cert.Pre_KernelIdeal m) (c : Dev nD) :
    InRange (src (m ((c.tc : Thread nD τ).loc main_arg1))) := by
  haveI : Subsingleton Cert.Pre_finite_inputs.S_.Idx := ⟨fun a b => funext fun d => d.elim0⟩
  have h := congrFun (hpre c) ValueIdx.ix0
  dsimp only [Cert.Pre_finite_inputs.fn, Cert.Pre_finite_inputs.fn_part1, Cert.Pre_finite_inputs.fn_part2,
    Cert.Pre_finite_inputs.fn_part3] at h
  have hall := Host.reduce_andi_all _ _ _ _ _ (IntOp.andi_eq_one.1 h).2
  intro j
  have hj' : (j 0).val < 1700000 := (j 0).isLt
  by_cases hj : (j 0).val < 1600000
  · have e : src (m ((c.tc : Thread nD τ).loc main_arg1)) j = _ :=
      concatenate_pair_apply_left (t := Cert.ReferenceIdeal.S1700000) (s₁ := Cert.ReferenceIdeal.S1600000) (s₂ := Cert.ReferenceIdeal.S100000)
        (0 : Fin Cert.ReferenceIdeal.S1700000.rank) _ _ Cert.ReferenceIdeal.Gen.concatenates_S1600000_S100000_S1700000_d0 j rfl (ix1 ⟨(j 0).val, hj⟩)
        (fun b => by match b with | ⟨0, _⟩ => rfl)
    rw [e]
    obtain ⟨h0, h1⟩ := IntOp.andi_eq_one.1 (hall (ix1 ⟨(j 0).val, hj⟩))
    exact toNat_lt_of_cmp h0 h1
  · have e : src (m ((c.tc : Thread nD τ).loc main_arg1)) j = _ :=
      concatenate_pair_apply_right (t := Cert.ReferenceIdeal.S1700000) (s₁ := Cert.ReferenceIdeal.S1600000) (s₂ := Cert.ReferenceIdeal.S100000)
        (0 : Fin Cert.ReferenceIdeal.S1700000.rank) _ _ Cert.ReferenceIdeal.Gen.concatenates_S1600000_S100000_S1700000_d0 j rfl rfl
        (ix1 ⟨(j 0).val - 1600000, by omega⟩)
        (fun b => by match b with | ⟨0, _⟩ => exact fun hb => absurd rfl hb)
        (by show (j 0).val - 1600000 + 1600000 = (j 0).val; omega)
    rw [e]
    show (BitVec.ofNat 32 ((j 0).val - 1600000)).toNat < 100000
    rw [BitVec.toNat_ofNat, Nat.mod_eq_of_lt (by omega)]
    omega

variable (X : Valuation τ sig (Elt Ideal))

set_option maxHeartbeats 4000000 in
/-- With every index in range, the first `take`'s out-of-range fill is never chosen: it is the plain row gather. -/
theorem take1 (hs : InRange (X (Proc.devRef .tc main_v3))) :
    StableHlo.after (hostOps1 (F := Ideal)) X (Proc.devRef .tc main_v31)
      = Host.gather gather_S100000x64_S1700000x1_S1700000x64_1_0_n_n_0_1_164 (X (Proc.devRef .tc main_v30)) (wrap (X (Proc.devRef .tc main_v3))) := by
  after_results_simp
  simp only [ofBuf_toBuf]
  refine (cast_eq _ _).trans ?_
  refine Eq.trans (select_rows_one _ ?hm _ _) ?hg
  case hm =>
    intro p
    refine reduce_andi_one _ _ _ _ p rfl (fun i => ?_)
    exact mask_elem _ hs i
  case hg => rfl

set_option maxHeartbeats 4000000 in
/-- The same for the second `take`. -/
theorem take2 (hs : InRange (X (Proc.devRef .tc main_v3))) :
    StableHlo.after (hostOps2 (F := Ideal)) X (Proc.devRef .tc main_v39)
      = Host.gather gather_S100000x64_S1700000x1_S1700000x64_1_0_n_n_0_1_164 (X (Proc.devRef .tc main_v38)) (wrap (X (Proc.devRef .tc main_v3))) := by
  after_results_simp
  simp only [ofBuf_toBuf]
  refine (cast_eq _ _).trans ?_
  refine Eq.trans (select_rows_one _ ?hm _ _) ?hg
  case hm =>
    intro p
    refine reduce_andi_one _ _ _ _ p rfl (fun i => ?_)
    exact mask_elem _ hs i
  case hg => rfl

set_option maxHeartbeats 4000000 in
/-- The same for the third `take`. -/
theorem take3 (hs : InRange (X (Proc.devRef .tc main_v3))) :
    StableHlo.after (hostOps3 (F := Ideal)) X (Proc.devRef .tc main_v47)
      = Host.gather gather_S100000x64_S1700000x1_S1700000x64_1_0_n_n_0_1_164 (X (Proc.devRef .tc main_v46)) (wrap (X (Proc.devRef .tc main_v3))) := by
  after_results_simp
  simp only [ofBuf_toBuf]
  refine (cast_eq _ _).trans ?_
  refine Eq.trans (select_rows_one _ ?hm _ _) ?hg
  case hm =>
    intro p
    refine reduce_andi_one _ _ _ _ p rfl (fun i => ?_)
    exact mask_elem _ hs i
  case hg => rfl

end Cert.GNN

end
-- ==== Proof.HostChain.lean ====
/-
  The kernel program's host side, stretch by stretch, as values. Between two pallas_calls the program runs plain array
  operations; each stretch below is read as one equation "this buffer now holds that function of those buffers",
  for an arbitrary valuation `X` of the buffers before the stretch:
  the edge preprocessing (`src`, `dst`, `norm` of the edge list), the three aggregations (row gather, scale,
  accumulate into the target rows — with every source index in range the gather's out-of-range fill is never chosen),
  the padding of the head's matrix and bias, and the final column slice.
-/
import proofs.«419092_j35880156790903_2_alg».proof.Proof.Gen.KernelIdeal.Launch
import proofs.«419092_j35880156790903_2_alg».proof.Proof.Spec
import proofs.«419092_j35880156790903_2_alg».proof.Proof.Head128
import proofs.«419092_j35880156790903_2_alg».proof.Proof.Take
import Idealize.ShloMosaic.Lib.StableHlo.Run

set_option maxRecDepth 16384

noncomputable section

namespace Cert.GNN

open Idealize.ShloMosaic Idealize.SL.Sem
open Cert.KernelIdeal Cert.KernelIdeal.Gen

variable {F : FTy → Type} [FloatOps F]

/-! ## A stretch leaves alone every buffer none of its operations writes -/

/-- Closes `StableHlo.after ops X b = X b` for a literal stretch `ops` none of whose operations writes `b`. -/
macro "host_keep" : tactic => `(tactic|
  exact StableHlo.after_of_forall_not_mem _ _ (List.forall_iff_forall_mem.mp (by
    simp only [hostOps0, hostOps0_1, hostOps0_2, hostOps1, hostOps1_1, hostOps2, hostOps2_1, hostOps3, hostOps3_1, hostOps4,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## Before the first pallas_call: the edge list's preprocessing -/

section AnyFloats

variable (X : Valuation τ sig (Elt F))

/-- The three stretches before the first pallas_call, as one valuation. -/
abbrev pre0 : Valuation τ sig (Elt F) :=
  StableHlo.after (hostOps0_2 (F := F)) (StableHlo.after (hostOps0_1 (F := F)) (StableHlo.after (hostOps0 (F := F)) X))

theorem pre0_src : pre0 X (Proc.devRef .tc main_v3) = src (X (Proc.devRef .tc main_arg1)) := by
  after_results_simp
  rfl

theorem pre0_dst : pre0 X (Proc.devRef .tc main_v6) = dst (X (Proc.devRef .tc main_arg1)) := by
  after_results_simp
  rfl

theorem pre0_norm : pre0 X (Proc.devRef .tc main_v29) = norm (F := F) (X (Proc.devRef .tc main_arg1)) := by
  after_results_simp
  rfl

end AnyFloats

variable (X : Valuation τ sig (Elt Ideal))

/-! ## One aggregation: gather, scale, accumulate -/

theorem agg1 (hs : InRange (X (Proc.devRef .tc main_v3))) :
    StableHlo.after (hostOps1_1 (F := Ideal)) (StableHlo.after (hostOps1 (F := Ideal)) X) (Proc.devRef .tc main_v37)
      = Host.scatterAdd (F := Ideal) scatter_S100000x64_S1700000x1_S1700000x64_1_0_0_1 (broadcastInDim S100000x64 ![] bcast_S_S100000x64 (constant S_ .f32 0x00000000#32))
          (broadcastInDim S1700000x1 ![0] bcast_S1700000_S1700000x1_0 (X (Proc.devRef .tc main_v6)))
          (mulf (Host.gather gather_S100000x64_S1700000x1_S1700000x64_1_0_n_n_0_1_164 (X (Proc.devRef .tc main_v30)) (wrap (X (Proc.devRef .tc main_v3))))
            (broadcastInDim S1700000x64 ![0, 1] bcast_S1700000x1_S1700000x64_0_1 (broadcastInDim S1700000x1 ![0] bcast_S1700000_S1700000x1_0 (X (Proc.devRef .tc main_v29))))) := by
  have e31 := take1 X hs
  have e6 : StableHlo.after (hostOps1 (F := Ideal)) X (Proc.devRef .tc main_v6) = X (Proc.devRef .tc main_v6) := by host_keep
  have e29 : StableHlo.after (hostOps1 (F := Ideal)) X (Proc.devRef .tc main_v29) = X (Proc.devRef .tc main_v29) := by host_keep
  generalize StableHlo.after (hostOps1 (F := Ideal)) X = Y at e31 e6 e29 ⊢
  after_results
  rw [e31, e6, e29]

theorem agg2 (hs : InRange (X (Proc.devRef .tc main_v3))) :
    StableHlo.after (hostOps2_1 (F := Ideal)) (StableHlo.after (hostOps2 (F := Ideal)) X) (Proc.devRef .tc main_v45)
      = Host.scatterAdd (F := Ideal) scatter_S100000x64_S1700000x1_S1700000x64_1_0_0_1 (broadcastInDim S100000x64 ![] bcast_S_S100000x64 (constant S_ .f32 0x00000000#32))
          (broadcastInDim S1700000x1 ![0] bcast_S1700000_S1700000x1_0 (X (Proc.devRef .tc main_v6)))
          (mulf (Host.gather gather_S100000x64_S1700000x1_S1700000x64_1_0_n_n_0_1_164 (X (Proc.devRef .tc main_v38)) (wrap (X (Proc.devRef .tc main_v3))))
            (broadcastInDim S1700000x64 ![0, 1] bcast_S1700000x1_S1700000x64_0_1 (broadcastInDim S1700000x1 ![0] bcast_S1700000_S1700000x1_0 (X (Proc.devRef .tc main_v29))))) := by
  have e31 := take2 X hs
  have e6 : StableHlo.after (hostOps2 (F := Ideal)) X (Proc.devRef .tc main_v6) = X (Proc.devRef .tc main_v6) := by host_keep
  have e29 : StableHlo.after (hostOps2 (F := Ideal)) X (Proc.devRef .tc main_v29) = X (Proc.devRef .tc main_v29) := by host_keep
  generalize StableHlo.after (hostOps2 (F := Ideal)) X = Y at e31 e6 e29 ⊢
  after_results
  rw [e31, e6, e29]

theorem agg3 (hs : InRange (X (Proc.devRef .tc main_v3))) :
    StableHlo.after (hostOps3_1 (F := Ideal)) (StableHlo.after (hostOps3 (F := Ideal)) X) (Proc.devRef .tc main_v53)
      = Host.scatterAdd (F := Ideal) scatter_S100000x64_S1700000x1_S1700000x64_1_0_0_1 (broadcastInDim S100000x64 ![] bcast_S_S100000x64 (constant S_ .f32 0x00000000#32))
          (broadcastInDim S1700000x1 ![0] bcast_S1700000_S1700000x1_0 (X (Proc.devRef .tc main_v6)))
          (mulf (Host.gather gather_S100000x64_S1700000x1_S1700000x64_1_0_n_n_0_1_164 (X (Proc.devRef .tc main_v46)) (wrap (X (Proc.devRef .tc main_v3))))
            (broadcastInDim S1700000x64 ![0, 1] bcast_S1700000x1_S1700000x64_0_1 (broadcastInDim S1700000x1 ![0] bcast_S1700000_S1700000x1_0 (X (Proc.devRef .tc main_v29))))) := by
  have e31 := take3 X hs
  have e6 : StableHlo.after (hostOps3 (F := Ideal)) X (Proc.devRef .tc main_v6) = X (Proc.devRef .tc main_v6) := by host_keep
  have e29 : StableHlo.after (hostOps3 (F := Ideal)) X (Proc.devRef .tc main_v29) = X (Proc.devRef .tc main_v29) := by host_keep
  generalize StableHlo.after (hostOps3 (F := Ideal)) X = Y at e31 e6 e29 ⊢
  after_results
  rw [e31, e6, e29]

/-! ## Before the last pallas_call: the head's matrix and bias, padded to 128 lanes -/

theorem pad_w : StableHlo.after (hostOps3_1 (F := Ideal)) X (Proc.devRef .tc main_v57) = wpad (F := Ideal) (X (Proc.devRef .tc main_arg8)) := by
  after_results
  rfl

theorem pad_b : StableHlo.after (hostOps3_1 (F := Ideal)) X (Proc.devRef .tc main_v61) = bpad (F := Ideal) (X (Proc.devRef .tc main_arg9)) := by
  after_results
  rfl

/-! ## After the last pallas_call: column 0, flattened -/

theorem tail_v64 : StableHlo.after (hostOps4 (F := Ideal)) X (Proc.devRef .tc main_v64)
    = shapeCast S100000 (extractStridedSlice S100000x1 ![0, 0] (X (Proc.devRef .tc main_v62)) slices_S100000x128_S100000x1_0_0) shapeCasts_S100000x1_S100000 := by
  after_results
  rfl

end Cert.GNN

end
-- ==== Proof.Region0.lean ====
/-
  The first pallas_call computes `x · W1`. Its grid has 20 points; point `t` reads rows `5000 t … 5000 t + 4999` of `x`
  (a [5000, 3] block), all of `W1` ([3, 64]), and writes the same rows of the [100000, 64] output. Its body multiplies
  the block by `W1` into a zero accumulator; on the extended reals the rounding to bf16 is the identity, so entry
  `(p, q)` of the block's result is `Σ_{k<3} x[5000 t + p, k] · W1[k, q]`, which is entry `(5000 t + p, q)` of the
  whole product. The 20 row blocks tile the output, row `r` lying in the block of point `r / 5000`, so after the run
  the output array is `x · W1`.
-/
import proofs.«419092_j35880156790903_2_alg».proof.Proof.Gen.KernelIdeal.Frame
import proofs.«419092_j35880156790903_2_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.GNN

open Idealize.ShloMosaic Idealize.ShloMosaic.ValueIdx Idealize.ShloMosaic.TcCoe Idealize.SL.Sem
open Cert.KernelIdeal Cert.KernelIdeal.Gen

variable (V : (c : Dev nD) → (b : Ref sig .tc) → Buf (Elt Ideal) ((c : Thread nD τ).loc b))

namespace Region0

/-! ## The block product at an entry

The operand indices of the [5000, 3] × [3, 64] product at output entry `j` and contraction index `q`, axis by axis:
the left operand is read at `(j 0, q)`, the right one at `(q, j 1)`. -/

theorem lhs_blk0_0 (j : S5000x64.Idx) (q : dot_S5000x3_S3x64_S5000x64_1_0_0_1_n_n.contr.Idx) :
    (dot_S5000x3_S3x64_S5000x64_1_0_0_1_n_n.lhsIdx j q 0).val = (j 0).val := by
  unfold DotDims.lhsIdx
  rw [dif_neg (show ¬(0 : Fin S5000x3.rank) ∈ dot_S5000x3_S3x64_S5000x64_1_0_0_1_n_n.lhsBatch by decide), dif_pos (show (0 : Fin S5000x3.rank) ∈ dot_S5000x3_S3x64_S5000x64_1_0_0_1_n_n.lhsNonContracting by decide)]
  rfl
theorem lhs_blk0_1 (j : S5000x64.Idx) (q : dot_S5000x3_S3x64_S5000x64_1_0_0_1_n_n.contr.Idx) :
    (dot_S5000x3_S3x64_S5000x64_1_0_0_1_n_n.lhsIdx j q 1).val = (q ⟨0, by decide⟩).val :=
  dot_S5000x3_S3x64_S5000x64_1_0_0_1_n_n.lhsIdx_val_of_single rfl j q
theorem rhs_blk0_0 (j : S5000x64.Idx) (q : dot_S5000x3_S3x64_S5000x64_1_0_0_1_n_n.contr.Idx) :
    (dot_S5000x3_S3x64_S5000x64_1_0_0_1_n_n.rhsIdx j q 0).val = (q ⟨0, by decide⟩).val :=
  dot_S5000x3_S3x64_S5000x64_1_0_0_1_n_n.rhsIdx_val_of_single rfl j q
theorem rhs_blk0_1 (j : S5000x64.Idx) (q : dot_S5000x3_S3x64_S5000x64_1_0_0_1_n_n.contr.Idx) :
    (dot_S5000x3_S3x64_S5000x64_1_0_0_1_n_n.rhsIdx j q 1).val = (j 1).val := by
  unfold DotDims.rhsIdx
  rw [dif_neg (show ¬(1 : Fin S3x64.rank) ∈ dot_S5000x3_S3x64_S5000x64_1_0_0_1_n_n.rhsBatch by decide), dif_pos (show (1 : Fin S3x64.rank) ∈ dot_S5000x3_S3x64_S5000x64_1_0_0_1_n_n.rhsNonContracting by decide)]
  rfl

/-- What the body stores, at entry `(p, q)` of the block: `Σ_{k<3} x[p, k] · W[k, q]` — the two roundings to bf16 are
    the identity on the extended reals and the accumulator is zero. -/
theorem pay0_apply (x : Vec Ideal S5000x3 .f32) (W : Vec Ideal S3x64 .f32) (p : Fin 5000) (q : Fin 64) :
    k0_pay1 (F := Ideal) x W (ix2 p q) = ∑ k : Fin 3, x (ix2 p k) * W (ix2 k q) := by
  unfold k0_pay1
  simp only [matmul]
  rw [Ideal.matmul_constant_zero_apply, ← Equiv.sum_comp (contrEquiv1 dot_S5000x3_S3x64_S5000x64_1_0_0_1_n_n 3 rfl rfl).symm]
  refine Finset.sum_congr rfl fun k _ => ?_
  have hk := contrEquiv1_symm_val dot_S5000x3_S3x64_S5000x64_1_0_0_1_n_n 3 rfl rfl k
  have el : dot_S5000x3_S3x64_S5000x64_1_0_0_1_n_n.lhsIdx (ix2 p q) ((contrEquiv1 dot_S5000x3_S3x64_S5000x64_1_0_0_1_n_n 3 rfl rfl).symm k) = ix2 p k := funext fun a => Fin.ext (by
    match a with
    | ⟨0, _⟩ => exact lhs_blk0_0 _ _
    | ⟨1, _⟩ => exact (lhs_blk0_1 _ _).trans hk)
  have er : dot_S5000x3_S3x64_S5000x64_1_0_0_1_n_n.rhsIdx (ix2 p q) ((contrEquiv1 dot_S5000x3_S3x64_S5000x64_1_0_0_1_n_n 3 rfl rfl).symm k) = ix2 k q := funext fun a => Fin.ext (by
    match a with
    | ⟨0, _⟩ => exact (rhs_blk0_0 _ _).trans hk
    | ⟨1, _⟩ => exact rhs_blk0_1 _ _)
  rw [truncf_apply, truncf_apply, el, er]

/-! ## The whole product at an entry

The same four facts for the [100000, 3] × [3, 64] product. -/

theorem lhs_ref0_0 (i : Cert.ReferenceIdeal.S100000x64.Idx) (q : Cert.ReferenceIdeal.dot_S100000x3_S3x64_S100000x64_1_0_0_1_n_n.contr.Idx) :
    (Cert.ReferenceIdeal.dot_S100000x3_S3x64_S100000x64_1_0_0_1_n_n.lhsIdx i q 0).val = (i 0).val := by
  unfold DotDims.lhsIdx
  rw [dif_neg (show ¬(0 : Fin Cert.ReferenceIdeal.S100000x3.rank) ∈ Cert.ReferenceIdeal.dot_S100000x3_S3x64_S100000x64_1_0_0_1_n_n.lhsBatch by decide), dif_pos (show (0 : Fin Cert.ReferenceIdeal.S100000x3.rank) ∈ Cert.ReferenceIdeal.dot_S100000x3_S3x64_S100000x64_1_0_0_1_n_n.lhsNonContracting by decide)]
  rfl
theorem lhs_ref0_1 (i : Cert.ReferenceIdeal.S100000x64.Idx) (q : Cert.ReferenceIdeal.dot_S100000x3_S3x64_S100000x64_1_0_0_1_n_n.contr.Idx) :
    (Cert.ReferenceIdeal.dot_S100000x3_S3x64_S100000x64_1_0_0_1_n_n.lhsIdx i q 1).val = (q ⟨0, by decide⟩).val :=
  Cert.ReferenceIdeal.dot_S100000x3_S3x64_S100000x64_1_0_0_1_n_n.lhsIdx_val_of_single rfl i q
theorem rhs_ref0_0 (i : Cert.ReferenceIdeal.S100000x64.Idx) (q : Cert.ReferenceIdeal.dot_S100000x3_S3x64_S100000x64_1_0_0_1_n_n.contr.Idx) :
    (Cert.ReferenceIdeal.dot_S100000x3_S3x64_S100000x64_1_0_0_1_n_n.rhsIdx i q 0).val = (q ⟨0, by decide⟩).val :=
  Cert.ReferenceIdeal.dot_S100000x3_S3x64_S100000x64_1_0_0_1_n_n.rhsIdx_val_of_single rfl i q
theorem rhs_ref0_1 (i : Cert.ReferenceIdeal.S100000x64.Idx) (q : Cert.ReferenceIdeal.dot_S100000x3_S3x64_S100000x64_1_0_0_1_n_n.contr.Idx) :
    (Cert.ReferenceIdeal.dot_S100000x3_S3x64_S100000x64_1_0_0_1_n_n.rhsIdx i q 1).val = (i 1).val := by
  unfold DotDims.rhsIdx
  rw [dif_neg (show ¬(1 : Fin Cert.ReferenceIdeal.S3x64.rank) ∈ Cert.ReferenceIdeal.dot_S100000x3_S3x64_S100000x64_1_0_0_1_n_n.rhsBatch by decide), dif_pos (show (1 : Fin Cert.ReferenceIdeal.S3x64.rank) ∈ Cert.ReferenceIdeal.dot_S100000x3_S3x64_S100000x64_1_0_0_1_n_n.rhsNonContracting by decide)]
  rfl

/-- `lin0 x W` at entry `(i, q)`: `Σ_{k<3} x[i, k] · W[k, q]`. -/
theorem lin0_apply (x : FVec Ideal Cert.ReferenceIdeal.S100000x3 .f32) (W : FVec Ideal Cert.ReferenceIdeal.S3x64 .f32) (i : Fin 100000) (q : Fin 64) :
    lin0 (F := Ideal) x W (ix2 i q) = ∑ k : Fin 3, x (ix2 i k) * W (ix2 k q) := by
  unfold lin0
  simp only [Host.dotGeneral]
  rw [Ideal.dotGeneral_apply, ← Equiv.sum_comp (contrEquiv1 Cert.ReferenceIdeal.dot_S100000x3_S3x64_S100000x64_1_0_0_1_n_n 3 rfl rfl).symm]
  refine Finset.sum_congr rfl fun k _ => ?_
  have hk := contrEquiv1_symm_val Cert.ReferenceIdeal.dot_S100000x3_S3x64_S100000x64_1_0_0_1_n_n 3 rfl rfl k
  have el : Cert.ReferenceIdeal.dot_S100000x3_S3x64_S100000x64_1_0_0_1_n_n.lhsIdx (ix2 i q) ((contrEquiv1 Cert.ReferenceIdeal.dot_S100000x3_S3x64_S100000x64_1_0_0_1_n_n 3 rfl rfl).symm k) = ix2 i k := funext fun a => Fin.ext (by
    match a with
    | ⟨0, _⟩ => exact lhs_ref0_0 _ _
    | ⟨1, _⟩ => exact (lhs_ref0_1 _ _).trans hk)
  have er : Cert.ReferenceIdeal.dot_S100000x3_S3x64_S100000x64_1_0_0_1_n_n.rhsIdx (ix2 i q) ((contrEquiv1 Cert.ReferenceIdeal.dot_S100000x3_S3x64_S100000x64_1_0_0_1_n_n 3 rfl rfl).symm k) = ix2 k q := funext fun a => Fin.ext (by
    match a with
    | ⟨0, _⟩ => exact (rhs_ref0_0 _ _).trans hk
    | ⟨1, _⟩ => exact rhs_ref0_1 _ _)
  rw [el, er]

/-- A block's product is the whole product's rows: if row `p` of the block `x0` is row `i` of `x` and column `q` of `W0`
    is column `q` of `W`, entry `(p, q)` of `x0 · W0` is entry `(i, q)` of `x · W`. -/
theorem blk0_eq (x : FVec Ideal Cert.ReferenceIdeal.S100000x3 .f32) (W : FVec Ideal Cert.ReferenceIdeal.S3x64 .f32) (x0 : Vec Ideal S5000x3 .f32) (W0 : Vec Ideal S3x64 .f32)
    (p : Fin 5000) (q : Fin 64) (i : Fin 100000)
    (hx : ∀ k : Fin 3, x0 (ix2 p k) = x (ix2 i k)) (hW : ∀ k : Fin 3, W0 (ix2 k q) = W (ix2 k q)) :
    k0_pay1 (F := Ideal) x0 W0 (ix2 p q) = lin0 (F := Ideal) x W (ix2 i q) := by
  rw [pay0_apply, lin0_apply]
  exact Finset.sum_congr rfl fun k _ => by rw [hx k, hW k]

/-! ## From the blocks to the array -/

theorem hz2 : (![0, 0] : Fin 2 → Nat) = fun _ => 0 := funext fun a => by fin_cases a <;> rfl

/-- The three index maps over the 20 grid points: at point `t` the block of `x` and the block of the output are row
    block `t` (column block 0); `W1`'s one block is block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- At point `t`, entry `j = (p, q)` of what the body stores is entry `(5000 t + p, q)` of `x · W1`: the output block's
    entry `j` sits there, the block of `x` has its row `p` at row `5000 t + p`, and `W1`'s block is `W1`. -/
theorem flushed0_at (c : Dev nD) (t : Fin cfg0.N) (j : S5000x64.Idx) :
    k0_pay1 (F := Ideal) (iblk0 V c 0 t) (iblk0 V c 1 t) j
      = lin0 (F := Ideal) (V c main_arg0) (V c main_arg2) (((cfg0.win 2).blk t).view.emb j) := by
  obtain ⟨p, q, rfl⟩ : ∃ (p : Fin 5000) (q : Fin 64), j = ix2 p q := ⟨j 0, j 1, eq_ix2 j⟩
  obtain ⟨e00, e01, e10, e11, e20, e21⟩ := idx_facts0 t
  have hN : grid0.N = 20 := N_0
  have ht : t.val < 20 := hN ▸ t.isLt
  have hp : p.val < 5000 := p.isLt
  have hq : q.val < 64 := q.isLt
  have hi : ((cfg0.win 2).blk t).view.emb (ix2 p q) = ix2 (⟨t.val * 5000 + p.val, by omega⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 64 + 1 * q.val = q.val; omega
  refine Eq.trans ?_ (congrArg (lin0 (F := Ideal) (V c main_arg0) (V c main_arg2)) hi).symm
  refine blk0_eq (V c main_arg0) (V c main_arg2) (iblk0 V c 0 t) (iblk0 V c 1 t) p q ⟨t.val * 5000 + p.val, by omega⟩ (fun k => ?_) (fun k => ?_)
  · have hk : k.val < 3 := k.isLt
    have h0 : ((cfg0.win 0).blk t).view.emb (ix2 p k) = ix2 (⟨t.val * 5000 + p.val, by omega⟩ : Fin 100000) k := by
      funext a; apply Fin.ext
      match a with
      | ⟨0, _⟩ => show win0_0.index t (0 : Fin 2) * 5000 + 1 * p.val = t.val * 5000 + p.val; omega
      | ⟨1, _⟩ => show win0_0.index t (1 : Fin 2) * 3 + 1 * k.val = k.val; omega
    show V c main_arg0 (((cfg0.win 0).blk t).view.emb (ix2 p k)) = _
    rw [h0]
  · have hk : k.val < 3 := k.isLt
    have h1 : ((cfg0.win 1).blk t).view.emb (ix2 k q) = ix2 k q := by
      funext a; apply Fin.ext
      match a with
      | ⟨0, _⟩ => show win0_1.index t (0 : Fin 2) * 3 + 1 * k.val = k.val; omega
      | ⟨1, _⟩ => show win0_1.index t (1 : Fin 2) * 64 + 1 * q.val = q.val; omega
    show V c main_arg2 (((cfg0.win 1).blk t).view.emb (ix2 k q)) = _
    rw [h1]

/-- What point `t` writes back is block `t` of `x · W1`. -/
theorem flushed0_eq (c : Dev nD) (t : Fin cfg0.N) :
    (dat0 (F := Ideal) V c).flushed 2 t
      = ((cfg0.win 2).blk t).view.read (Elt Ideal) (lin0 (F := Ideal) (V c main_arg0) (V c main_arg2)) := by
  show (cfg0.win 2).cut (grid0.coords t) ((dat0 V c).after 2 t) = _
  rw [after0_2]
  unfold out0_2
  rw [View.canon_unit_zero hz2]
  simp only [View.ld_unit_zero (S := S5000x3) hz2, View.ld_unit_zero (S := S3x64) hz2]
  funext j
  exact flushed0_at V c t j

/-- An entry of the output is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- The 20 blocks cover the output: row `r` is in the block of point `r / 5000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  obtain ⟨t, ht⟩ : ∃ t : Fin cfg0.N, t.val = (i 0).val / 5000 := ⟨⟨(i 0).val / 5000, by show _ < grid0.N; omega⟩, rfl⟩
  obtain ⟨e00, e01, e10, e11, e20, e21⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

end Region0

/-- After the first pallas_call its output array holds `x · W1` of the two arrays it found. -/
theorem final0 (c : Dev nD) :
    (dat0 (F := Ideal) V c).arrAt 2 cfg0.N = lin0 (F := Ideal) (V c main_arg0) (V c main_arg2) :=
  (dat0 (F := Ideal) V c).arrAt_eq_of_cover 2 (lin0 (F := Ideal) (V c main_arg0) (V c main_arg2))
    (fun t _ => Region0.flushed0_eq V c t) Region0.cover0

end Cert.GNN

end
-- ==== Proof.Region12.lean ====
/-
  The two middle pallas_calls, each one layer `relu(a + b) · W` on a [100000, 64] array of activations.

  A call walks 20 grid points; point t stages rows 5000t … 5000t + 4999 of the activations together with the whole
  bias b and the whole weight matrix W, and writes back the same rows of the result. On the extended reals the change
  of float format before the product is the identity and the product into a zero accumulator is the plain sum, so
  entry (p, q) of what point t writes is Σ_k max(a[5000t + p, k] + b[k], 0) · W[k, q]: row 5000t + p of the layer taken
  over the whole array, whose dot product reads as the same sum. Every row r lies in the block of point r / 5000, so
  after the 20 points the output array is the layer of the arrays the call found.
-/
import proofs.«419092_j35880156790903_2_alg».proof.Proof.Gen.KernelIdeal.Frame
import proofs.«419092_j35880156790903_2_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.GNN

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

namespace Region12

/-! ## The kernel's product at an index -/

theorem klhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem klhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem krhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem krhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block's product into a zero accumulator, at row p and column q: the sum over the 64 contracted coordinates. -/
theorem kmatmul_apply (A : FVec Ideal S5000x64 .bf16) (B : FVec Ideal S64x64 .bf16) (p : Fin 5000) (q : Fin 64) :
    matmul dot_S5000x64_S64x64_S5000x64_1_0_0_1_n_n none A B (constant S5000x64 .f32 0x00000000#32) (ix2 p q)
      = ∑ k : Fin 64, A (ix2 p k) * B (ix2 k q) := by
  show FloatOps.matmul dot_S5000x64_S64x64_S5000x64_1_0_0_1_n_n none A B (constant S5000x64 .f32 0x00000000#32) (ix2 p q) = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact klhs_0 _ _
    | ⟨1, _⟩ => exact (klhs_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (krhs_0 _ _).trans hk
    | ⟨1, _⟩ => exact krhs_1 _ _)
  rw [el, er]

/-- The bias row laid along the block's 5000 rows, at (p, k). -/
theorem kbias_apply (v0 : Vec Ideal S64 .f32) (p : Fin 5000) (k : Fin 64) :
    broadcastTo S5000x64 (shapeCast S1x64 v0 shapeCasts_S64_S1x64) broadcasts_S1x64_S5000x64 (ix2 p k) = v0 (ix1 k) := by
  refine (broadcastTo_apply _ broadcasts_S1x64_S5000x64 (ix2 p k) (ix2 (0 : Fin 1) k) (fun a => ?_)).trans ?_
  · match a with
    | ⟨0, _⟩ => rfl
    | ⟨1, _⟩ => rfl
  · refine (shapeCast_addUnit_apply ![64] v0 shapeCasts_S64_S1x64 (ix2 (0 : Fin 1) k)).trans ?_
    exact congrArg v0 (funext fun d => by match d with | ⟨0, _⟩ => rfl)

/-- The body's result at row p, column q of its block. -/
theorem pay_apply (v0 : Vec Ideal S64 .f32) (v3 : Vec Ideal S5000x64 .f32) (v9 : Vec Ideal S64x64 .f32) (p : Fin 5000) (q : Fin 64) :
    k1_pay1 (F := Ideal) v0 v3 v9 (ix2 p q) = ∑ k : Fin 64, max (v3 (ix2 p k) + v0 (ix1 k)) 0 * v9 (ix2 k q) := by
  unfold k1_pay1
  refine (kmatmul_apply _ _ p q).trans ?_
  refine Finset.sum_congr rfl fun k _ => ?_
  rw [truncf_apply, truncf_apply, maximumf_apply, addf_apply, shapeCast_self, kbias_apply, broadcast_apply]
  show max _ (Ideal.ofBits .f32 0x00000000#32) * _ = _
  rw [Ideal.ofBits_zero_f32]

/-- The third pallas_call's body is the same arithmetic. -/
theorem pay2_apply (v0 : Vec Ideal S64 .f32) (v3 : Vec Ideal S5000x64 .f32) (v9 : Vec Ideal S64x64 .f32) (p : Fin 5000) (q : Fin 64) :
    k2_pay1 (F := Ideal) v0 v3 v9 (ix2 p q) = ∑ k : Fin 64, max (v3 (ix2 p k) + v0 (ix1 k)) 0 * v9 (ix2 k q) :=
  pay_apply v0 v3 v9 p q

/-! ## The layer, index by index -/

/-- Entry (i, q) of a layer: Σ_k max(a[i,k] + b[k], 0) · W[k,q]. -/
def linAt (a : FVec Ideal S100000x64 .f32) (b : FVec Ideal S64 .f32) (W : FVec Ideal S64x64 .f32) : FVec Ideal S100000x64 .f32 :=
  fun j => ∑ k : Fin 64, max (a (ix2 (j 0 : Fin 100000) k) + b (ix1 k)) 0 * W (ix2 k (j 1 : Fin 64))

theorem linAt_of (a : FVec Ideal S100000x64 .f32) (b : FVec Ideal S64 .f32) (W : FVec Ideal S64x64 .f32)
    (i : S100000x64.Idx) (r : Fin 100000) (q : Fin 64) (h0 : (i 0).val = r.val) (h1 : (i 1).val = q.val) :
    linAt a b W i = ∑ k : Fin 64, max (a (ix2 r k) + b (ix1 k)) 0 * W (ix2 k q) := by
  have e : i = ix2 r q := funext fun d => Fin.ext (by
    match d with
    | ⟨0, _⟩ => exact h0
    | ⟨1, _⟩ => exact h1)
  rw [e]
  rfl

/-! ## The reference's layer at an index -/

theorem rlhs_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem rlhs_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem rrhs_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem rrhs_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The whole-array product at row i and column q: the sum over the 64 contracted coordinates. -/
theorem rdot_apply (A : FVec Ideal Cert.ReferenceIdeal.S100000x64 .f32) (W : FVec Ideal Cert.ReferenceIdeal.S64x64 .f32) (i : Fin 100000) (q : Fin 64) :
    Host.dotGeneral (F := Ideal) Cert.ReferenceIdeal.dot_S100000x64_S64x64_S100000x64_1_0_0_1_n_n none A W (ix2 i q)
      = ∑ k : Fin 64, A (ix2 i k) * W (ix2 k q) := by
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 i q) ((ValueIdx.contrEquiv1 Cert.ReferenceIdeal.dot_S100000x64_S64x64_S100000x64_1_0_0_1_n_n 64 rfl rfl).symm k) = ix2 i k := funext fun a => Fin.ext (by
    match a with
    | ⟨0, _⟩ => exact rlhs_0 _ _
    | ⟨1, _⟩ => exact (rlhs_1 _ _).trans hk)
  have er : Cert.ReferenceIdeal.dot_S100000x64_S64x64_S100000x64_1_0_0_1_n_n.rhsIdx (ix2 i q) ((ValueIdx.contrEquiv1 Cert.ReferenceIdeal.dot_S100000x64_S64x64_S100000x64_1_0_0_1_n_n 64 rfl rfl).symm k) = ix2 k q := funext fun a => Fin.ext (by
    match a with
    | ⟨0, _⟩ => exact (rrhs_0 _ _).trans hk
    | ⟨1, _⟩ => exact rrhs_1 _ _)
  rw [el, er]

/-- The bias repeated down the rows, at (i, k). -/
theorem bias_apply (b : FVec Ideal Cert.ReferenceIdeal.S64 .f32) (i : Fin 100000) (k : Fin 64) :
    bias (F := Ideal) b (ix2 i k) = b (ix1 k) := by
  unfold bias
  refine (broadcastInDim_apply _ Cert.ReferenceIdeal.Gen.bcast_S1x64_S100000x64_0_1 _ (ix2 i k) (ix2 (0 : Fin 1) k) (fun a => ?_)).trans ?_
  · match a with
    | ⟨0, _⟩ => show 0 = if (1 : Nat) = 1 then 0 else i.val; rw [if_pos rfl]
    | ⟨1, _⟩ => show k.val = if (64 : Nat) = 1 then 0 else k.val; rw [if_neg (by decide)]
  · refine broadcastInDim_apply _ Cert.ReferenceIdeal.Gen.bcast_S64_S1x64_1 b (ix2 (0 : Fin 1) k) (ix1 k) (fun a => ?_)
    match a with
    | ⟨0, _⟩ => show k.val = if (64 : Nat) = 1 then 0 else k.val; rw [if_neg (by decide)]

/-- The reference's layer is the index-by-index one. -/
theorem lin_eq_linAt (a : FVec Ideal Cert.ReferenceIdeal.S100000x64 .f32) (b : FVec Ideal Cert.ReferenceIdeal.S64 .f32) (W : FVec Ideal Cert.ReferenceIdeal.S64x64 .f32) :
    lin (F := Ideal) a b W = linAt a b W := by
  funext j
  obtain ⟨i, q, rfl⟩ : ∃ (i : Fin 100000) (q : Fin 64), j = ix2 i q := ⟨j 0, j 1, eq_ix2 j⟩
  unfold lin
  refine (rdot_apply _ W i q).trans ?_
  refine Eq.trans (Finset.sum_congr rfl fun k _ => ?_) (linAt_of a b W (ix2 i q) i q rfl rfl).symm
  rw [maximumf_apply, addf_apply, bias_apply]
  rw [broadcastInDim_apply _ Cert.ReferenceIdeal.Gen.bcast_S_S100000x64 (constant (F := Ideal) Cert.ReferenceIdeal.S_ .f32 0x00000000#32) (ix2 i k) ix0 (fun a => a.elim0)]
  rw [constant_apply, Ideal.ofBits_zero_f32]

theorem hz2 : (![0, 0] : Fin 2 → Nat) = fun _ => 0 := funext fun a => by fin_cases a <;> rfl
theorem hz1 : (![0] : Fin 1 → Nat) = fun _ => 0 := funext fun a => by fin_cases a <;> rfl

/-! ## The second pallas_call: blocks of 5000 rows -/

/-- The index maps over the 20 grid points: the row-block windows sit at block t, the bias and the weights at block 0. -/
theorem idx_facts1 : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of block t of the activations is row 5000·t + p of the array. -/
theorem blk1_0_apply (c : Dev nD) (t : Fin cfg1.N) (p : Fin 5000) (k : Fin 64) (i : Fin 100000) (hi : i.val = 5000 * t.val + p.val) :
    (iblk1 (F := Ideal) V c 0 t : Vec Ideal S5000x64 .f32) (ix2 p k) = (V c main_v37 : S100000x64.Idx → EReal) (ix2 i k) := by
  obtain ⟨e0, e1, -⟩ := idx_facts1 t
  unfold iblk1
  rw [View.read_apply]
  show V c main_v37 (((cfg1.win 0).blk t).view.emb (ix2 p k)) = V c main_v37 (ix2 i k)
  congr 1
  funext a
  apply Fin.ext
  match a with
  | ⟨0, _⟩ => show win1_0.index t (0 : Fin 2) * 5000 + 1 * p.val = i.val; rw [e0, hi]; omega
  | ⟨1, _⟩ => show win1_0.index t (1 : Fin 2) * 64 + 1 * k.val = k.val; rw [e1]; omega

/-- The bias block is the bias. -/
theorem blk1_1_apply (c : Dev nD) (t : Fin cfg1.N) (k : Fin 64) :
    (iblk1 (F := Ideal) V c 1 t : Vec Ideal S64 .f32) (ix1 k) = (V c main_arg3 : S64.Idx → EReal) (ix1 k) := by
  obtain ⟨-, -, e2, -⟩ := idx_facts1 t
  unfold iblk1
  rw [View.read_apply]
  show V c main_arg3 (((cfg1.win 1).blk t).view.emb (ix1 k)) = V c main_arg3 (ix1 k)
  congr 1
  funext a
  apply Fin.ext
  match a with
  | ⟨0, _⟩ => show win1_1.index t (0 : Fin 1) * 64 + 1 * k.val = k.val; rw [e2]; omega

/-- The weight block is the weight matrix. -/
theorem blk1_2_apply (c : Dev nD) (t : Fin cfg1.N) (k q : Fin 64) :
    (iblk1 (F := Ideal) V c 2 t : Vec Ideal S64x64 .f32) (ix2 k q) = (V c main_arg4 : S64x64.Idx → EReal) (ix2 k q) := by
  obtain ⟨-, -, -, e3, e4, -⟩ := idx_facts1 t
  unfold iblk1
  rw [View.read_apply]
  show V c main_arg4 (((cfg1.win 2).blk t).view.emb (ix2 k q)) = V c main_arg4 (ix2 k q)
  congr 1
  funext a
  apply Fin.ext
  match a with
  | ⟨0, _⟩ => show win1_2.index t (0 : Fin 2) * 64 + 1 * k.val = k.val; rw [e3]; omega
  | ⟨1, _⟩ => show win1_2.index t (1 : Fin 2) * 64 + 1 * q.val = q.val; rw [e4]; omega

/-- What point t writes back is block t of the layer of the arrays the call found. -/
theorem flushed1_eq (c : Dev nD) (t : Fin cfg1.N) :
    (dat1 (F := Ideal) V c).flushed 3 t = ((cfg1.win 3).blk t).view.read (Elt Ideal) (linAt (V c main_v37) (V c main_arg3) (V c main_arg4)) := by
  show (cfg1.win 3).cut (grid1.coords t) ((dat1 V c).after 3 t) = _
  rw [after1_3]
  unfold out1_3
  rw [View.canon_unit_zero hz2]
  simp only [View.ld_unit_zero (S := S5000x64) hz2, View.ld_unit_zero (S := S64) hz1, View.ld_unit_zero (S := S64x64) hz2]
  have key : ∀ j : S5000x64.Idx, k1_pay1 (F := Ideal) (iblk1 V c 1 t) (iblk1 V c 0 t) (iblk1 V c 2 t) j
      = linAt (V c main_v37) (V c main_arg3) (V c main_arg4) (((cfg1.win 3).blk t).view.emb j) := by
    intro j
    obtain ⟨p, q, rfl⟩ : ∃ (p : Fin 5000) (q : Fin 64), j = ix2 p q := ⟨j 0, j 1, eq_ix2 j⟩
    obtain ⟨-, -, -, -, -, e5, e6⟩ := idx_facts1 t
    have hN : cfg1.N = 20 := N_1
    have ht : t.val < 20 := hN ▸ t.isLt
    refine (pay_apply (iblk1 V c 1 t) (iblk1 V c 0 t) (iblk1 V c 2 t) p q).trans ?_
    refine Eq.trans ?_ (linAt_of (V c main_v37) (V c main_arg3) (V c main_arg4) _ ⟨5000 * t.val + p.val, by omega⟩ q ?_ ?_).symm
    · refine Finset.sum_congr rfl fun k _ => ?_
      rw [blk1_0_apply V c t p k ⟨5000 * t.val + p.val, by omega⟩ rfl, blk1_1_apply V c t k, blk1_2_apply V c t k q]
    · show win1_3.index t (0 : Fin 2) * 5000 + 1 * p.val = 5000 * t.val + p.val
      rw [e5]; omega
    · show win1_3.index t (1 : Fin 2) * 64 + 1 * q.val = q.val
      rw [e6]; omega
  funext j
  exact key j

/-- An index of the array is in point t's block iff each coordinate is in the block's range on its axis. -/
theorem mem_blk1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v38).slice (win1_3.rect t)).set ↔ _
  rw [View.set_slice_whole, Rect.mem_set_unit]
  exact Iff.rfl

/-- Row r lies in the block of point r / 5000. -/
theorem cover1 (i : S100000x64.Idx) : ∃ t : Fin cfg1.N, (cfg1.win 3).flush t = true ∧ i ∈ ((cfg1.win 3).blk t).view.set := by
  have hN : cfg1.N = 20 := N_1
  have hi0 : (i 0).val < 100000 := (i 0).isLt
  have hi1 : (i 1).val < 64 := (i 1).isLt
  let t : Fin cfg1.N := ⟨(i 0).val / 5000, by rw [hN]; omega⟩
  obtain ⟨-, -, -, -, -, e5, e6⟩ := idx_facts1 t
  have e5' : win1_3.index t (0 : Fin 2) = (i 0).val / 5000 := e5
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; rw [e5']; omega
  | ⟨1, _⟩ => show win1_3.index t (1 : Fin 2) * 64 ≤ (i 1).val ∧ (i 1).val < win1_3.index t (1 : Fin 2) * 64 + 64; rw [e6]; omega

/-- After its 20 points the output array holds the layer of the arrays the call found. -/
theorem final1At (c : Dev nD) :
    (dat1 (F := Ideal) V c).arrAt 3 cfg1.N = linAt (V c main_v37) (V c main_arg3) (V c main_arg4) :=
  (dat1 (F := Ideal) V c).arrAt_eq_of_cover 3 (linAt (V c main_v37) (V c main_arg3) (V c main_arg4)) (fun t _ => flushed1_eq V c t) cover1

/-! ## The third pallas_call: blocks of 5000 rows -/

/-- The index maps over the 20 grid points: the row-block windows sit at block t, the bias and the weights at block 0. -/
theorem idx_facts2 : ∀ t : Fin cfg2.N, win2_0.index t (0 : Fin 2) = t.val ∧ win2_0.index t (1 : Fin 2) = 0
    ∧ win2_1.index t (0 : Fin 1) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of block t of the activations is row 5000·t + p of the array. -/
theorem blk2_0_apply (c : Dev nD) (t : Fin cfg2.N) (p : Fin 5000) (k : Fin 64) (i : Fin 100000) (hi : i.val = 5000 * t.val + p.val) :
    (iblk2 (F := Ideal) V c 0 t : Vec Ideal S5000x64 .f32) (ix2 p k) = (V c main_v45 : S100000x64.Idx → EReal) (ix2 i k) := by
  obtain ⟨e0, e1, -⟩ := idx_facts2 t
  unfold iblk2
  rw [View.read_apply]
  show V c main_v45 (((cfg2.win 0).blk t).view.emb (ix2 p k)) = V c main_v45 (ix2 i k)
  congr 1
  funext a
  apply Fin.ext
  match a with
  | ⟨0, _⟩ => show win2_0.index t (0 : Fin 2) * 5000 + 1 * p.val = i.val; rw [e0, hi]; omega
  | ⟨1, _⟩ => show win2_0.index t (1 : Fin 2) * 64 + 1 * k.val = k.val; rw [e1]; omega

/-- The bias block is the bias. -/
theorem blk2_1_apply (c : Dev nD) (t : Fin cfg2.N) (k : Fin 64) :
    (iblk2 (F := Ideal) V c 1 t : Vec Ideal S64 .f32) (ix1 k) = (V c main_arg5 : S64.Idx → EReal) (ix1 k) := by
  obtain ⟨-, -, e2, -⟩ := idx_facts2 t
  unfold iblk2
  rw [View.read_apply]
  show V c main_arg5 (((cfg2.win 1).blk t).view.emb (ix1 k)) = V c main_arg5 (ix1 k)
  congr 1
  funext a
  apply Fin.ext
  match a with
  | ⟨0, _⟩ => show win2_1.index t (0 : Fin 1) * 64 + 1 * k.val = k.val; rw [e2]; omega

/-- The weight block is the weight matrix. -/
theorem blk2_2_apply (c : Dev nD) (t : Fin cfg2.N) (k q : Fin 64) :
    (iblk2 (F := Ideal) V c 2 t : Vec Ideal S64x64 .f32) (ix2 k q) = (V c main_arg6 : S64x64.Idx → EReal) (ix2 k q) := by
  obtain ⟨-, -, -, e3, e4, -⟩ := idx_facts2 t
  unfold iblk2
  rw [View.read_apply]
  show V c main_arg6 (((cfg2.win 2).blk t).view.emb (ix2 k q)) = V c main_arg6 (ix2 k q)
  congr 1
  funext a
  apply Fin.ext
  match a with
  | ⟨0, _⟩ => show win2_2.index t (0 : Fin 2) * 64 + 1 * k.val = k.val; rw [e3]; omega
  | ⟨1, _⟩ => show win2_2.index t (1 : Fin 2) * 64 + 1 * q.val = q.val; rw [e4]; omega

/-- What point t writes back is block t of the layer of the arrays the call found. -/
theorem flushed2_eq (c : Dev nD) (t : Fin cfg2.N) :
    (dat2 (F := Ideal) V c).flushed 3 t = ((cfg2.win 3).blk t).view.read (Elt Ideal) (linAt (V c main_v45) (V c main_arg5) (V c main_arg6)) := by
  show (cfg2.win 3).cut (grid2.coords t) ((dat2 V c).after 3 t) = _
  rw [after2_3]
  unfold out2_3
  rw [View.canon_unit_zero hz2]
  simp only [View.ld_unit_zero (S := S5000x64) hz2, View.ld_unit_zero (S := S64) hz1, View.ld_unit_zero (S := S64x64) hz2]
  have key : ∀ j : S5000x64.Idx, k2_pay1 (F := Ideal) (iblk2 V c 1 t) (iblk2 V c 0 t) (iblk2 V c 2 t) j
      = linAt (V c main_v45) (V c main_arg5) (V c main_arg6) (((cfg2.win 3).blk t).view.emb j) := by
    intro j
    obtain ⟨p, q, rfl⟩ : ∃ (p : Fin 5000) (q : Fin 64), j = ix2 p q := ⟨j 0, j 1, eq_ix2 j⟩
    obtain ⟨-, -, -, -, -, e5, e6⟩ := idx_facts2 t
    have hN : cfg2.N = 20 := N_2
    have ht : t.val < 20 := hN ▸ t.isLt
    refine (pay2_apply (iblk2 V c 1 t) (iblk2 V c 0 t) (iblk2 V c 2 t) p q).trans ?_
    refine Eq.trans ?_ (linAt_of (V c main_v45) (V c main_arg5) (V c main_arg6) _ ⟨5000 * t.val + p.val, by omega⟩ q ?_ ?_).symm
    · refine Finset.sum_congr rfl fun k _ => ?_
      rw [blk2_0_apply V c t p k ⟨5000 * t.val + p.val, by omega⟩ rfl, blk2_1_apply V c t k, blk2_2_apply V c t k q]
    · show win2_3.index t (0 : Fin 2) * 5000 + 1 * p.val = 5000 * t.val + p.val
      rw [e5]; omega
    · show win2_3.index t (1 : Fin 2) * 64 + 1 * q.val = q.val
      rw [e6]; omega
  funext j
  exact key j

/-- An index of the array is in point t's block iff each coordinate is in the block's range on its axis. -/
theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v46).slice (win2_3.rect t)).set ↔ _
  rw [View.set_slice_whole, Rect.mem_set_unit]
  exact Iff.rfl

/-- Row r lies in the block of point r / 5000. -/
theorem cover2 (i : S100000x64.Idx) : ∃ t : Fin cfg2.N, (cfg2.win 3).flush t = true ∧ i ∈ ((cfg2.win 3).blk t).view.set := by
  have hN : cfg2.N = 20 := N_2
  have hi0 : (i 0).val < 100000 := (i 0).isLt
  have hi1 : (i 1).val < 64 := (i 1).isLt
  let t : Fin cfg2.N := ⟨(i 0).val / 5000, by rw [hN]; omega⟩
  obtain ⟨-, -, -, -, -, e5, e6⟩ := idx_facts2 t
  have e5' : win2_3.index t (0 : Fin 2) = (i 0).val / 5000 := e5
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; rw [e5']; omega
  | ⟨1, _⟩ => show win2_3.index t (1 : Fin 2) * 64 ≤ (i 1).val ∧ (i 1).val < win2_3.index t (1 : Fin 2) * 64 + 64; rw [e6]; omega

/-- After its 20 points the output array holds the layer of the arrays the call found. -/
theorem final2At (c : Dev nD) :
    (dat2 (F := Ideal) V c).arrAt 3 cfg2.N = linAt (V c main_v45) (V c main_arg5) (V c main_arg6) :=
  (dat2 (F := Ideal) V c).arrAt_eq_of_cover 3 (linAt (V c main_v45) (V c main_arg5) (V c main_arg6)) (fun t _ => flushed2_eq V c t) cover2

end Region12

/-- After the second pallas_call its output array holds `relu(a + b1) · W2` of the arrays it found. -/
theorem final1 (c : Dev nD) :
    (dat1 (F := Ideal) V c).arrAt 3 cfg1.N = lin (F := Ideal) (V c main_v37) (V c main_arg3) (V c main_arg4) :=
  (Region12.final1At V c).trans (Region12.lin_eq_linAt _ _ _).symm

/-- After the third pallas_call its output array holds `relu(a + b2) · W3` of the arrays it found. -/
theorem final2 (c : Dev nD) :
    (dat2 (F := Ideal) V c).arrAt 3 cfg2.N = lin (F := Ideal) (V c main_v45) (V c main_arg5) (V c main_arg6) :=
  (Region12.final2At V c).trans (Region12.lin_eq_linAt _ _ _).symm

end Cert.GNN

end
-- ==== Proof.Region3.lean ====
/-
  The fourth pallas_call computes the 128-lane head `(a + b) · Wp + bp`. Its grid has 20 points; point `t` reads rows
  `5000 t … 5000 t + 4999` of `a` (a [5000, 64] block), all of `b` ([64]), `Wp` ([64, 128]) and `bp` ([128]), and writes
  the same rows of the [100000, 128] output. Its body adds `b` to every row of the block, multiplies by `Wp` into a zero
  accumulator and adds `bp` to every row; on the extended reals the rounding to bf16 is the identity, so entry `(p, l)`
  of the block's result is `Σ_{k<64} (a[5000 t + p, k] + b[k]) · Wp[k, l] + bp[l]`, which is entry `(5000 t + p, l)` of
  `head128 a b Wp bp`. The 20 row blocks tile the output, row `r` lying in the block of point `r / 5000`, so after the
  run the output array is `head128 a b Wp bp`.
-/
import proofs.«419092_j35880156790903_2_alg».proof.Proof.Gen.KernelIdeal.Frame
import proofs.«419092_j35880156790903_2_alg».proof.Proof.Spec
import proofs.«419092_j35880156790903_2_alg».proof.Proof.Head128
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.GNN

open Idealize.ShloMosaic Idealize.ShloMosaic.ValueIdx Idealize.ShloMosaic.TcCoe Idealize.SL.Sem
open Cert.KernelIdeal Cert.KernelIdeal.Gen

variable (V : (c : Dev nD) → (b : Ref sig .tc) → Buf (Elt Ideal) ((c : Thread nD τ).loc b))

namespace Region3

/-! ## The block product at an entry

The operand indices of the [5000, 64] × [64, 128] product at output entry `j` and contraction index `q`, axis by axis:
the left operand is read at `(j 0, q)`, the right one at `(q, j 1)`. -/

theorem lhs_blk3_0 (j : S5000x128.Idx) (q : dot_S5000x64_S64x128_S5000x128_1_0_0_1_n_n.contr.Idx) :
    (dot_S5000x64_S64x128_S5000x128_1_0_0_1_n_n.lhsIdx j q 0).val = (j 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_blk3_1 (j : S5000x128.Idx) (q : dot_S5000x64_S64x128_S5000x128_1_0_0_1_n_n.contr.Idx) :
    (dot_S5000x64_S64x128_S5000x128_1_0_0_1_n_n.lhsIdx j q 1).val = (q ⟨0, by decide⟩).val :=
  dot_S5000x64_S64x128_S5000x128_1_0_0_1_n_n.lhsIdx_val_of_single rfl j q
theorem rhs_blk3_0 (j : S5000x128.Idx) (q : dot_S5000x64_S64x128_S5000x128_1_0_0_1_n_n.contr.Idx) :
    (dot_S5000x64_S64x128_S5000x128_1_0_0_1_n_n.rhsIdx j q 0).val = (q ⟨0, by decide⟩).val :=
  dot_S5000x64_S64x128_S5000x128_1_0_0_1_n_n.rhsIdx_val_of_single rfl j q
theorem rhs_blk3_1 (j : S5000x128.Idx) (q : dot_S5000x64_S64x128_S5000x128_1_0_0_1_n_n.contr.Idx) :
    (dot_S5000x64_S64x128_S5000x128_1_0_0_1_n_n.rhsIdx j q 1).val = (j 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- What the body stores, at entry `(p, l)` of the block: `Σ_{k<64} (a[p, k] + b[k]) · Wp[k, l] + bp[l]` — the bias `b` is
    one row repeated down the block's rows, `bp` likewise after the product; the roundings to bf16 are the identity on
    the extended reals and the accumulator is zero. -/
theorem pay3_apply (b : Vec Ideal S64 .f32) (a : Vec Ideal S5000x64 .f32) (Wp : Vec Ideal S64x128 .f32) (bp : Vec Ideal S128 .f32)
    (p : Fin 5000) (l : Fin 128) :
    k3_pay1 (F := Ideal) b a Wp bp (ix2 p l)
      = (∑ k : Fin 64, (a (ix2 p k) + b (ix1 k)) * Wp (ix2 k l)) + bp (ix1 l) := by
  unfold k3_pay1
  simp only [matmul, shapeCast_self]
  rw [addf_apply, Ideal.matmul_constant_zero_apply, ← Equiv.sum_comp (contrEquiv1 dot_S5000x64_S64x128_S5000x128_1_0_0_1_n_n 64 rfl rfl).symm,
    broadcastTo_1b_ab_apply, shapeCast_a_1a_apply]
  refine congrArg (· + bp (ix1 l)) (Finset.sum_congr rfl fun k _ => ?_)
  have hk := contrEquiv1_symm_val dot_S5000x64_S64x128_S5000x128_1_0_0_1_n_n 64 rfl rfl k
  have el : dot_S5000x64_S64x128_S5000x128_1_0_0_1_n_n.lhsIdx (ix2 p l) ((contrEquiv1 dot_S5000x64_S64x128_S5000x128_1_0_0_1_n_n 64 rfl rfl).symm k) = ix2 p k := funext fun a => Fin.ext (by
    match a with
    | ⟨0, _⟩ => exact lhs_blk3_0 _ _
    | ⟨1, _⟩ => exact (lhs_blk3_1 _ _).trans hk)
  have er : dot_S5000x64_S64x128_S5000x128_1_0_0_1_n_n.rhsIdx (ix2 p l) ((contrEquiv1 dot_S5000x64_S64x128_S5000x128_1_0_0_1_n_n 64 rfl rfl).symm k) = ix2 k l := funext fun a => Fin.ext (by
    match a with
    | ⟨0, _⟩ => exact (rhs_blk3_0 _ _).trans hk
    | ⟨1, _⟩ => exact rhs_blk3_1 _ _)
  rw [truncf_apply, truncf_apply, el, er, addf_apply, broadcastTo_1b_ab_apply, shapeCast_a_1a_apply]

/-- `head128 a b Wp bp` at entry `(i, l)`, its defining sum with the coordinates written out. -/
theorem head128_apply (a : FVec Ideal S100000x64 .f32) (b : FVec Ideal S64 .f32) (Wp : FVec Ideal S64x128 .f32) (bp : FVec Ideal S128 .f32)
    (i : Fin 100000) (l : Fin 128) :
    head128 a b Wp bp (ix2 i l) = (∑ k : Fin 64, (a (ix2 i k) + b (ix1 k)) * Wp (ix2 k l)) + bp (ix1 l) := rfl

/-- A block's result is the whole result's rows: if row `p` of the block `a0` is row `i` of `a` and the three whole
    operands agree where they are read, entry `(p, l)` of the block's result is entry `(i, l)` of `head128`. -/
theorem blk3_eq (a : FVec Ideal S100000x64 .f32) (b : FVec Ideal S64 .f32) (Wp : FVec Ideal S64x128 .f32) (bp : FVec Ideal S128 .f32)
    (a0 : Vec Ideal S5000x64 .f32) (b0 : Vec Ideal S64 .f32) (W0 : Vec Ideal S64x128 .f32) (bp0 : Vec Ideal S128 .f32)
    (p : Fin 5000) (l : Fin 128) (i : Fin 100000)
    (ha : ∀ k : Fin 64, a0 (ix2 p k) = a (ix2 i k)) (hb : ∀ k : Fin 64, b0 (ix1 k) = b (ix1 k))
    (hW : ∀ k : Fin 64, W0 (ix2 k l) = Wp (ix2 k l)) (hbp : bp0 (ix1 l) = bp (ix1 l)) :
    k3_pay1 (F := Ideal) b0 a0 W0 bp0 (ix2 p l) = head128 a b Wp bp (ix2 i l) := by
  rw [pay3_apply, head128_apply, hbp]
  exact congrArg (· + bp (ix1 l)) (Finset.sum_congr rfl fun k _ => by rw [ha k, hb k, hW k])

/-! ## From the blocks to the array -/

theorem hz1 : (![0] : Fin 1 → Nat) = fun _ => 0 := funext fun a => by fin_cases a; rfl
theorem hz2 : (![0, 0] : Fin 2 → Nat) = fun _ => 0 := funext fun a => by fin_cases a <;> rfl

/-- The five index maps over the 20 grid points: at point `t` the block of `a` and the block of the output are row
    block `t` (column block 0); `b`, `Wp` and `bp` each have one block, at index 0. -/
theorem idx_facts3 : ∀ t : Fin cfg3.N, win3_0.index t (0 : Fin 2) = t.val ∧ win3_0.index t (1 : Fin 2) = 0
    ∧ win3_1.index t (0 : Fin 1) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- At point `t`, entry `j = (p, l)` of what the body stores is entry `(5000 t + p, l)` of `head128`: the output
    block's entry `j` sits there, the block of `a` has its row `p` at row `5000 t + p`, and the other three blocks are
    their whole arrays. -/
theorem flushed3_at (c : Dev nD) (t : Fin cfg3.N) (j : S5000x128.Idx) :
    k3_pay1 (F := Ideal) (iblk3 V c 1 t) (iblk3 V c 0 t) (iblk3 V c 2 t) (iblk3 V c 3 t) j
      = head128 (V c main_v53) (V c main_arg7) (V c main_v57) (V c main_v61) (((cfg3.win 4).blk t).view.emb j) := by
  obtain ⟨p, l, rfl⟩ : ∃ (p : Fin 5000) (l : Fin 128), j = ix2 p l := ⟨j 0, j 1, eq_ix2 j⟩
  obtain ⟨e00, e01, e10, e20, e21, e30, e40, e41⟩ := idx_facts3 t
  have hN : grid3.N = 20 := N_3
  have ht : t.val < 20 := hN ▸ t.isLt
  have hp : p.val < 5000 := p.isLt
  have hl : l.val < 128 := l.isLt
  have hi : ((cfg3.win 4).blk t).view.emb (ix2 p l) = ix2 (⟨t.val * 5000 + p.val, by omega⟩ : Fin 100000) l := by
    funext a; apply Fin.ext
    match a with
    | ⟨0, _⟩ => show win3_4.index t (0 : Fin 2) * 5000 + 1 * p.val = t.val * 5000 + p.val; omega
    | ⟨1, _⟩ => show win3_4.index t (1 : Fin 2) * 128 + 1 * l.val = l.val; omega
  refine Eq.trans ?_ (congrArg (head128 (V c main_v53) (V c main_arg7) (V c main_v57) (V c main_v61)) hi).symm
  refine blk3_eq (V c main_v53) (V c main_arg7) (V c main_v57) (V c main_v61)
    (iblk3 V c 0 t) (iblk3 V c 1 t) (iblk3 V c 2 t) (iblk3 V c 3 t) p l ⟨t.val * 5000 + p.val, by omega⟩
    (fun k => ?_) (fun k => ?_) (fun k => ?_) ?_
  · have hk : k.val < 64 := k.isLt
    have h0 : ((cfg3.win 0).blk t).view.emb (ix2 p k) = ix2 (⟨t.val * 5000 + p.val, by omega⟩ : Fin 100000) k := by
      funext a; apply Fin.ext
      match a with
      | ⟨0, _⟩ => show win3_0.index t (0 : Fin 2) * 5000 + 1 * p.val = t.val * 5000 + p.val; omega
      | ⟨1, _⟩ => show win3_0.index t (1 : Fin 2) * 64 + 1 * k.val = k.val; omega
    show V c main_v53 (((cfg3.win 0).blk t).view.emb (ix2 p k)) = _
    rw [h0]
  · have hk : k.val < 64 := k.isLt
    have h1 : ((cfg3.win 1).blk t).view.emb (ix1 k) = ix1 k := by
      funext a; apply Fin.ext
      match a with
      | ⟨0, _⟩ => show win3_1.index t (0 : Fin 1) * 64 + 1 * k.val = k.val; omega
    show V c main_arg7 (((cfg3.win 1).blk t).view.emb (ix1 k)) = _
    rw [h1]
  · have hk : k.val < 64 := k.isLt
    have h2 : ((cfg3.win 2).blk t).view.emb (ix2 k l) = ix2 k l := by
      funext a; apply Fin.ext
      match a with
      | ⟨0, _⟩ => show win3_2.index t (0 : Fin 2) * 64 + 1 * k.val = k.val; omega
      | ⟨1, _⟩ => show win3_2.index t (1 : Fin 2) * 128 + 1 * l.val = l.val; omega
    show V c main_v57 (((cfg3.win 2).blk t).view.emb (ix2 k l)) = _
    rw [h2]
  · have h3 : ((cfg3.win 3).blk t).view.emb (ix1 l) = ix1 l := by
      funext a; apply Fin.ext
      match a with
      | ⟨0, _⟩ => show win3_3.index t (0 : Fin 1) * 128 + 1 * l.val = l.val; omega
    show V c main_v61 (((cfg3.win 3).blk t).view.emb (ix1 l)) = _
    rw [h3]

/-- What point `t` writes back is block `t` of `head128`. -/
theorem flushed3_eq (c : Dev nD) (t : Fin cfg3.N) :
    (dat3 (F := Ideal) V c).flushed 4 t
      = ((cfg3.win 4).blk t).view.read (Elt Ideal) (head128 (V c main_v53) (V c main_arg7) (V c main_v57) (V c main_v61)) := by
  show (cfg3.win 4).cut (grid3.coords t) ((dat3 V c).after 4 t) = _
  rw [after3_4]
  unfold out3_4
  rw [View.canon_unit_zero hz2]
  simp only [View.ld_unit_zero (S := S5000x64) hz2, View.ld_unit_zero (S := S64x128) hz2,
    View.ld_unit_zero (S := S64) hz1, View.ld_unit_zero (S := S128) hz1]
  funext j
  exact flushed3_at V c t j

/-- An entry of the output is in point `t`'s block iff each coordinate is in the block's range on its axis. -/
theorem mem_blk3 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v62).slice (win3_4.rect t)).set ↔ _
  rw [View.set_slice_whole, Rect.mem_set_unit]
  exact Iff.rfl

/-- The 20 blocks cover the output: row `r` is in the block of point `r / 5000`. -/
theorem cover3 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : grid3.N = 20 := N_3
  obtain ⟨t, ht⟩ : ∃ t : Fin cfg3.N, t.val = (i 0).val / 5000 := ⟨⟨(i 0).val / 5000, by show _ < grid3.N; omega⟩, rfl⟩
  obtain ⟨e00, e01, e10, e20, e21, e30, e40, e41⟩ := idx_facts3 t
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

end Region3

/-- After the fourth pallas_call its output array holds the 128-lane head of the arrays it found. -/
theorem final3 (c : Dev nD) :
    (dat3 (F := Ideal) V c).arrAt 4 cfg3.N = head128 (V c main_v53) (V c main_arg7) (V c main_v57) (V c main_v61) :=
  (dat3 (F := Ideal) V c).arrAt_eq_of_cover 4 (head128 (V c main_v53) (V c main_arg7) (V c main_v57) (V c main_v61))
    (fun t _ => Region3.flushed3_eq V c t) Region3.cover3

end Cert.GNN

end
-- ==== Proof.HeadTail.lean ====
/-
  Column 0 of the kernel's 128-lane head, flattened, is the reference's head: per node i both are
  Σ_k (a[i,k] + b[k]) · Wh[k,0] + bh[0].

  The kernel multiplies by the head matrix laid in column 0 of a zero 64×128 matrix and adds the head bias laid in
  entry 0 of a zero vector of 128. Each is a scatter at the one start index 0 whose body returns the update: its
  updates land at pairwise distinct places (row j of column 0; entry 0), so a left fold of point updates read at one
  of those places gives that update. Hence column 0 of the padded matrix is the head matrix's column and entry 0 of the
  padded bias is the head bias; the reference's dot_general, read at (i, 0), is the same sum over the 64 features.
-/
import proofs.«419092_j35880156790903_2_alg».proof.Proof.Head128
import Idealize.ShloMosaic.Lib.ValueIdx
import Idealize.ShloMosaic.Lib.Pipeline.Value
import Idealize.ShloMosaic.PureOps.Ideal.Laws

set_option maxRecDepth 16384

noncomputable section

open scoped BigOperators

namespace Cert.GNN

open Idealize.ShloMosaic Idealize.ShloMosaic.ValueIdx Cert.KernelIdeal Cert.KernelIdeal.Gen

/-! ## A fold of point updates read at one of the points -/

/-- A left fold of "set the entry at p n to v n" over a list, read at p n0 for an n0 in the list, is v n0 when the
    positions are pairwise distinct: a later step only touches other positions. -/
theorem foldl_set_apply {ι β α : Type} [DecidableEq β] (p : ι → β) (hp : Function.Injective p) (v : ι → α)
    (l : List ι) (x : β → α) (n0 : ι) (h : n0 ∈ l) :
    (l.foldl (fun r n => fun i' => if i' = p n then v n else r i') x) (p n0) = v n0 := by
  classical
  suffices H : ∀ (l : List ι) (x : β → α),
      (l.foldl (fun r n => fun i' => if i' = p n then v n else r i') x) (p n0) = if n0 ∈ l then v n0 else x (p n0) by
    rw [H, if_pos h]
  intro l
  induction l with
  | nil => intro x; simp
  | cons a l ih =>
    intro x
    rw [List.foldl_cons, ih]
    by_cases hl : n0 ∈ l
    · rw [if_pos hl, if_pos (List.mem_cons_of_mem _ hl)]
    · rw [if_neg hl]
      by_cases ha : n0 = a
      · subst ha
        rw [if_pos rfl, if_pos List.mem_cons_self]
      · rw [if_neg (fun e => ha (hp e)), if_neg (by simp [ha, hl])]

/-- A scatter whose body returns the update, every update index landing inside the operand at g j with g injective,
    reads at g j the update's element j. -/
theorem scatter_set_apply {s si u : Shape} {w : Nat} {α : Type} (d : ScatterDims s si u) (x : s.Idx → α) (idx : IVec si w)
    (upd : u.Idx → α) (g : u.Idx → s.Idx) (hg : Function.Injective g) (h : ∀ j, d.resultIdx? j idx = some (g j)) (j : u.Idx) :
    Host.scatter d (fun _ b => b) x idx upd (g j) = upd j := by
  unfold Host.scatter
  simp only [h]
  have := foldl_set_apply (fun n : Fin u.numel => g (u.rowMajor.symm n)) (fun a b e => u.rowMajor.symm.injective (hg e))
    (fun n => upd (u.rowMajor.symm n)) (List.finRange u.numel) x (u.rowMajor j) (List.mem_finRange _)
  simpa using this

/-! ## Where the two scatters land -/

theorem wcol_start0 (j : S64.Idx) (idx : IVec S1 32) : scatter_S64x128_S1_S64_0_1_1_0.start j idx 0 = 0 := by
  unfold ScatterDims.start
  rw [dif_neg (by decide)]

theorem wcol_start1 (j : S64.Idx) (idx : IVec S1 32) (h0 : idx (ix1 0) = 0#32) :
    scatter_S64x128_S1_S64_0_1_1_0.start j idx 1 = 0 := by
  unfold ScatterDims.start
  rw [dif_pos (by decide)]
  have : scatter_S64x128_S1_S64_0_1_1_0.siIdx j ⟨List.idxOf (1 : Fin 2) scatter_S64x128_S1_S64_0_1_1_0.scatterDimsToOperandDims,
      List.idxOf_lt_length_iff.2 (by decide)⟩ = ix1 0 := by
    funext b; refine Fin.ext ?_
    match b with
    | ⟨0, _⟩ => rfl
  rw [this, h0]; rfl

theorem wcol_window0 (j : S64.Idx) : scatter_S64x128_S1_S64_0_1_1_0.window j 0 = (j 0).val := by
  unfold ScatterDims.window
  rw [dif_pos (by decide)]
  rfl

theorem wcol_window1 (j : S64.Idx) : scatter_S64x128_S1_S64_0_1_1_0.window j 1 = 0 := by
  unfold ScatterDims.window
  rw [dif_neg (by decide)]

/-- With the start index 0, element j of the 64 updates lands at row j of column 0. -/
theorem wcol_resultIdx (j : S64.Idx) (idx : IVec S1 32) (h0 : idx (ix1 0) = 0#32) :
    scatter_S64x128_S1_S64_0_1_1_0.resultIdx? j idx = some (ix2 (j 0) 0) := by
  unfold ScatterDims.resultIdx?
  have hall : ∀ a, 0 ≤ scatter_S64x128_S1_S64_0_1_1_0.start j idx a + scatter_S64x128_S1_S64_0_1_1_0.window j a
      ∧ scatter_S64x128_S1_S64_0_1_1_0.start j idx a + scatter_S64x128_S1_S64_0_1_1_0.window j a < S64x128.size a := by
    intro a
    match a with
    | ⟨0, _⟩ =>
      show 0 ≤ scatter_S64x128_S1_S64_0_1_1_0.start j idx 0 + scatter_S64x128_S1_S64_0_1_1_0.window j 0
        ∧ scatter_S64x128_S1_S64_0_1_1_0.start j idx 0 + scatter_S64x128_S1_S64_0_1_1_0.window j 0 < 64
      rw [wcol_start0, wcol_window0]; have : (j 0).val < 64 := (j 0).isLt; omega
    | ⟨1, _⟩ =>
      show 0 ≤ scatter_S64x128_S1_S64_0_1_1_0.start j idx 1 + scatter_S64x128_S1_S64_0_1_1_0.window j 1
        ∧ scatter_S64x128_S1_S64_0_1_1_0.start j idx 1 + scatter_S64x128_S1_S64_0_1_1_0.window j 1 < 128
      rw [wcol_start1 j idx h0, wcol_window1]; omega
  rw [dif_pos hall]
  congr 1
  funext a
  refine Fin.ext ?_
  match a with
  | ⟨0, _⟩ =>
    show (scatter_S64x128_S1_S64_0_1_1_0.start j idx 0 + scatter_S64x128_S1_S64_0_1_1_0.window j 0).toNat = (j 0).val
    rw [wcol_start0, wcol_window0]; omega
  | ⟨1, _⟩ =>
    show (scatter_S64x128_S1_S64_0_1_1_0.start j idx 1 + scatter_S64x128_S1_S64_0_1_1_0.window j 1).toNat = 0
    rw [wcol_start1 j idx h0, wcol_window1]; rfl

/-- With the start index 0, the one scalar update lands at entry 0. -/
theorem b0_resultIdx (j : S_.Idx) (idx : IVec S1 32) (h0 : idx (ix1 0) = 0#32) :
    scatter_S128_S1_S__n_0_0_0.resultIdx? j idx = some (ix1 0) := by
  have hs : scatter_S128_S1_S__n_0_0_0.start j idx 0 = 0 := by
    unfold ScatterDims.start
    rw [dif_pos (by decide)]
    have : scatter_S128_S1_S__n_0_0_0.siIdx j ⟨List.idxOf (0 : Fin 1) scatter_S128_S1_S__n_0_0_0.scatterDimsToOperandDims,
        List.idxOf_lt_length_iff.2 (by decide)⟩ = ix1 0 := by
      funext b; refine Fin.ext ?_
      match b with
      | ⟨0, _⟩ => rfl
    rw [this, h0]; rfl
  have hw : scatter_S128_S1_S__n_0_0_0.window j 0 = 0 := by
    unfold ScatterDims.window
    rw [dif_neg (by decide)]
  unfold ScatterDims.resultIdx?
  have hall : ∀ a, 0 ≤ scatter_S128_S1_S__n_0_0_0.start j idx a + scatter_S128_S1_S__n_0_0_0.window j a
      ∧ scatter_S128_S1_S__n_0_0_0.start j idx a + scatter_S128_S1_S__n_0_0_0.window j a < S128.size a := by
    intro a
    match a with
    | ⟨0, _⟩ =>
      show 0 ≤ scatter_S128_S1_S__n_0_0_0.start j idx 0 + scatter_S128_S1_S__n_0_0_0.window j 0
        ∧ scatter_S128_S1_S__n_0_0_0.start j idx 0 + scatter_S128_S1_S__n_0_0_0.window j 0 < 128
      rw [hs, hw]; omega
  rw [dif_pos hall]
  congr 1
  funext a
  refine Fin.ext ?_
  match a with
  | ⟨0, _⟩ =>
    show (scatter_S128_S1_S__n_0_0_0.start j idx 0 + scatter_S128_S1_S__n_0_0_0.window j 0).toNat = 0
    rw [hs, hw]; rfl

/-! ## Column 0 of the padded matrix, entry 0 of the padded bias -/

variable {F : FTy → Type} [FloatOps F]

/-- Column 0 of the padded head matrix is the head matrix's one column. -/
theorem wpad_col0 (Wh : FVec F S64x1 .f32) (k : Fin 64) : wpad Wh (ix2 k 0) = Wh (ix2 k 0) := by
  unfold wpad
  refine (scatter_set_apply scatter_S64x128_S1_S64_0_1_1_0 _ _ _ (fun j : S64.Idx => ix2 (j 0) (0 : Fin 128))
    (fun j j' e => ?_) (fun j => wcol_resultIdx j _ rfl) (ix1 k)).trans ?_
  · rw [eq_ix1 j, eq_ix1 j']
    exact congrArg ix1 (congrFun e 0)
  · exact shapeCast_apply _ _ (ix1 k) (ix2 k 0) (by
      rw [Shape.rowMajor_val_two, Shape.rowMajor_val_one]
      show k.val * 1 + 0 = k.val
      omega)

/-- Entry 0 of the padded head bias is the head bias. -/
theorem bpad_0 (bh : FVec F S1 .f32) : bpad bh (ix1 0) = bh (ix1 0) := by
  unfold bpad
  refine (scatter_set_apply scatter_S128_S1_S__n_0_0_0 _ _ _ (fun _ : S_.Idx => ix1 (0 : Fin 128))
    (fun j j' _ => funext fun a => a.elim0) (fun j => b0_resultIdx j _ rfl) ix0).trans ?_
  exact shapeCast_apply _ _ ix0 (ix1 0) (by
    rw [Shape.rowMajor_val_one]
    rfl)

/-! ## The reference's head at a node -/

theorem hd_lhs_0 (i : S100000x1.Idx) (q : Cert.ReferenceIdeal.dot_S100000x64_S64x1_S100000x1_1_0_0_1_n_n.contr.Idx) :
    (Cert.ReferenceIdeal.dot_S100000x64_S64x1_S100000x1_1_0_0_1_n_n.lhsIdx i q 0).val = (i 0).val := by
  unfold DotDims.lhsIdx
  rw [dif_neg (show ¬(0 : Fin S100000x64.rank) ∈ Cert.ReferenceIdeal.dot_S100000x64_S64x1_S100000x1_1_0_0_1_n_n.lhsBatch by decide),
    dif_pos (show (0 : Fin S100000x64.rank) ∈ Cert.ReferenceIdeal.dot_S100000x64_S64x1_S100000x1_1_0_0_1_n_n.lhsNonContracting by decide)]
  rfl
theorem hd_lhs_1 (i : S100000x1.Idx) (q : Cert.ReferenceIdeal.dot_S100000x64_S64x1_S100000x1_1_0_0_1_n_n.contr.Idx) :
    (Cert.ReferenceIdeal.dot_S100000x64_S64x1_S100000x1_1_0_0_1_n_n.lhsIdx i q 1).val = (q ⟨0, by decide⟩).val :=
  Cert.ReferenceIdeal.dot_S100000x64_S64x1_S100000x1_1_0_0_1_n_n.lhsIdx_val_of_single rfl i q
theorem hd_rhs_0 (i : S100000x1.Idx) (q : Cert.ReferenceIdeal.dot_S100000x64_S64x1_S100000x1_1_0_0_1_n_n.contr.Idx) :
    (Cert.ReferenceIdeal.dot_S100000x64_S64x1_S100000x1_1_0_0_1_n_n.rhsIdx i q 0).val = (q ⟨0, by decide⟩).val :=
  Cert.ReferenceIdeal.dot_S100000x64_S64x1_S100000x1_1_0_0_1_n_n.rhsIdx_val_of_single rfl i q
theorem hd_rhs_1 (i : S100000x1.Idx) (q : Cert.ReferenceIdeal.dot_S100000x64_S64x1_S100000x1_1_0_0_1_n_n.contr.Idx) :
    (Cert.ReferenceIdeal.dot_S100000x64_S64x1_S100000x1_1_0_0_1_n_n.rhsIdx i q 1).val = (i 1).val := by
  unfold DotDims.rhsIdx
  rw [dif_neg (show ¬(1 : Fin S64x1.rank) ∈ Cert.ReferenceIdeal.dot_S100000x64_S64x1_S100000x1_1_0_0_1_n_n.rhsBatch by decide),
    dif_pos (show (1 : Fin S64x1.rank) ∈ Cert.ReferenceIdeal.dot_S100000x64_S64x1_S100000x1_1_0_0_1_n_n.rhsNonContracting by decide)]
  rfl

/-- The bias repeated down the rows reads, at (i, k), entry k. -/
theorem bias_apply (b : FVec F S64 .f32) (i : Fin 100000) (k : Fin 64) : bias b (ix2 i k) = b (ix1 k) := by
  unfold bias
  refine (broadcastInDim_apply _ _ _ (ix2 i k) (ix2 0 k) fun a => ?_).trans (broadcastInDim_apply _ _ _ (ix2 0 k) (ix1 k) fun a => ?_)
  · match a with
    | ⟨0, _⟩ => rfl
    | ⟨1, _⟩ => rfl
  · match a with
    | ⟨0, _⟩ => rfl

/-- The reference's head at node i: the sum over the 64 features, plus the head bias. -/
theorem head_apply (a : FVec Ideal S100000x64 .f32) (b : FVec Ideal S64 .f32) (Wh : FVec Ideal S64x1 .f32) (bh : FVec Ideal S1 .f32)
    (i : Fin 100000) :
    head (F := Ideal) a b Wh bh (ix1 i) = (∑ k : Fin 64, (a (ix2 i k) + b (ix1 k)) * Wh (ix2 k 0)) + bh (ix1 0) := by
  unfold head
  refine (shapeCast_apply _ _ (ix1 i) (ix2 i 0) (by
    rw [Shape.rowMajor_val_two, Shape.rowMajor_val_one]
    show i.val * 1 + 0 = i.val
    omega)).trans ?_
  rw [addf_apply]
  congr 1
  · simp only [Host.dotGeneral]
    rw [Ideal.dotGeneral_apply, ← Equiv.sum_comp (contrEquiv1 Cert.ReferenceIdeal.dot_S100000x64_S64x1_S100000x1_1_0_0_1_n_n 64 rfl rfl).symm]
    refine Finset.sum_congr rfl fun k _ => ?_
    have hk := contrEquiv1_symm_val Cert.ReferenceIdeal.dot_S100000x64_S64x1_S100000x1_1_0_0_1_n_n 64 rfl rfl k
    have el : Cert.ReferenceIdeal.dot_S100000x64_S64x1_S100000x1_1_0_0_1_n_n.lhsIdx (ix2 i 0)
        ((contrEquiv1 Cert.ReferenceIdeal.dot_S100000x64_S64x1_S100000x1_1_0_0_1_n_n 64 rfl rfl).symm k) = ix2 i k :=
      funext fun a => Fin.ext (by
        match a with
        | ⟨0, _⟩ => exact hd_lhs_0 _ _
        | ⟨1, _⟩ => exact (hd_lhs_1 _ _).trans hk)
    have er : Cert.ReferenceIdeal.dot_S100000x64_S64x1_S100000x1_1_0_0_1_n_n.rhsIdx (ix2 i 0)
        ((contrEquiv1 Cert.ReferenceIdeal.dot_S100000x64_S64x1_S100000x1_1_0_0_1_n_n 64 rfl rfl).symm k) = ix2 k 0 :=
      funext fun a => Fin.ext (by
        match a with
        | ⟨0, _⟩ => exact (hd_rhs_0 _ _).trans hk
        | ⟨1, _⟩ => exact hd_rhs_1 _ _)
    rw [el, er, addf_apply, bias_apply]
  · refine (broadcastInDim_apply _ _ _ (ix2 i 0) (ix2 0 0) fun a => ?_).trans (broadcastInDim_apply _ _ _ (ix2 0 0) (ix1 0) fun a => ?_)
    · match a with
      | ⟨0, _⟩ => rfl
      | ⟨1, _⟩ => rfl
    · match a with
      | ⟨0, _⟩ => rfl

/-! ## The two heads agree -/

/-- Column 0 of the 128-lane head over the padded head matrix and bias is the reference's head. -/
theorem tail_eq (a : FVec Ideal S100000x64 .f32) (b : FVec Ideal S64 .f32) (Wh : FVec Ideal S64x1 .f32) (bh : FVec Ideal S1 .f32) :
    shapeCast S100000 (extractStridedSlice S100000x1 ![0, 0] (head128 a b (wpad Wh) (bpad bh)) slices_S100000x128_S100000x1_0_0) shapeCasts_S100000x1_S100000
      = head (F := Ideal) a b Wh bh := by
  funext j
  obtain ⟨i, rfl⟩ : ∃ i : Fin 100000, j = ix1 i := ⟨j 0, eq_ix1 j⟩
  rw [head_apply]
  refine (shapeCast_apply _ _ (ix1 i) (ix2 i 0) (by
    rw [Shape.rowMajor_val_two, Shape.rowMajor_val_one]
    show i.val * 1 + 0 = i.val
    omega)).trans ?_
  refine (extractStridedSlice_apply _ _ _ (ix2 i 0) (ix2 i 0) fun c => ?_).trans ?_
  · match c with
    | ⟨0, _⟩ => exact (Nat.zero_add _).symm
    | ⟨1, _⟩ => rfl
  · show (∑ k : Fin 64, (a (ix2 i k) + b (ix1 k)) * wpad Wh (ix2 k 0)) + bpad bh (ix1 0) = _
    rw [bpad_0]
    simp only [wpad_col0]

end Cert.GNN

end
-- ==== Proof.KernelValue.lean ====
/-
  What the kernel program leaves in its result buffer: the network `Cert.GNN.result` of its ten arguments.

  The program is four pallas_calls among stretches of plain array operations. Boundary by boundary its buffers are
  followed from the launch: the edge preprocessing gives `src`, `dst` and `norm` of the edge list; the first call
  leaves `x · W1`; each aggregation stretch leaves `agg` of the call before it (every source index names a node, by the
  precondition, so the row gather never takes its out-of-range fill); the second and third calls leave
  `relu(a + b) · W`; the last call leaves the 128-lane head over the padded matrix and bias, whose column 0 is the
  reference's head. A buffer no stretch writes and no call owns keeps its contents across it; the arguments, the two
  index vectors and the edge weights are carried that way to where they are read.
-/
import proofs.«419092_j35880156790903_2_alg».proof.Proof.Gen.KernelIdeal.Frame
import proofs.«419092_j35880156790903_2_alg».proof.Proof.HostChain
import proofs.«419092_j35880156790903_2_alg».proof.Proof.Region0
import proofs.«419092_j35880156790903_2_alg».proof.Proof.Region12
import proofs.«419092_j35880156790903_2_alg».proof.Proof.Region3
import proofs.«419092_j35880156790903_2_alg».proof.Proof.HeadTail
import proofs.«419092_j35880156790903_2_alg».proof.Proof.Take

set_option maxRecDepth 16384

noncomputable section

namespace Cert.GNN

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- One stretch of array operations back: the buffer is written by none of them. -/
macro "hstep" : tactic => `(tactic|
  refine (StableHlo.after_of_forall_not_mem _ _ (List.forall_iff_forall_mem.mp (by
    simp only [hostOps0, hostOps0_1, hostOps0_2, hostOps1, hostOps1_1, hostOps2, hostOps2_1, hostOps3, hostOps3_1, hostOps4,
        List.Forall, StableHlo.nullary_writes, StableHlo.unary_writes, StableHlo.binary_writes, StableHlo.ternary_writes,
        StableHlo.quaternary_writes, StableHlo.reshape_writes, StableHlo.binaryIndexed_writes, Finset.mem_singleton]
    repeat' apply And.intro
    all_goals exact StableHlo.devRef_ne_of_ne (by decide)))).trans ?_)
/-- One pallas_call back: the buffer is none of the call's arrays. -/
macro "r4" : tactic => `(tactic| refine (W4_of_ne _ _ _ _ (by decide)).trans ?_)
macro "r7" : tactic => `(tactic| refine (W7_of_ne _ _ _ _ (by decide)).trans ?_)
macro "r10" : tactic => `(tactic| refine (W10_of_ne _ _ _ _ (by decide)).trans ?_)
macro "r13" : tactic => `(tactic| refine (W13_of_ne _ _ _ _ (by decide)).trans ?_)

/-! ## The values along the way -/

/-- The first projection `x · W1`. -/
abbrev p1 : FVec Ideal S100000x64 .f32 := lin0 (F := Ideal) (m ((c.tc : Thread nD τ).loc main_arg0)) (m ((c.tc : Thread nD τ).loc main_arg2))
/-- The first aggregation. -/
abbrev a1 : FVec Ideal S100000x64 .f32 := agg (F := Ideal) (m ((c.tc : Thread nD τ).loc main_arg1)) (p1 m c)
/-- The second projection. -/
abbrev p2 : FVec Ideal S100000x64 .f32 := lin (F := Ideal) (a1 m c) (m ((c.tc : Thread nD τ).loc main_arg3)) (m ((c.tc : Thread nD τ).loc main_arg4))
/-- The second aggregation. -/
abbrev a2 : FVec Ideal S100000x64 .f32 := agg (F := Ideal) (m ((c.tc : Thread nD τ).loc main_arg1)) (p2 m c)
/-- The third projection. -/
abbrev p3 : FVec Ideal S100000x64 .f32 := lin (F := Ideal) (a2 m c) (m ((c.tc : Thread nD τ).loc main_arg5)) (m ((c.tc : Thread nD τ).loc main_arg6))
/-- The third aggregation. -/
abbrev a3 : FVec Ideal S100000x64 .f32 := agg (F := Ideal) (m ((c.tc : Thread nD τ).loc main_arg1)) (p3 m c)

/-! ## At the first pallas_call's entry -/

theorem w3_src : W3 m ρ c (Proc.devRef .tc main_v3) = src (m ((c.tc : Thread nD τ).loc main_arg1)) := pre0_src (W0 m ρ c)
theorem w3_dst : W3 m ρ c (Proc.devRef .tc main_v6) = dst (m ((c.tc : Thread nD τ).loc main_arg1)) := pre0_dst (W0 m ρ c)
theorem w3_norm : W3 m ρ c (Proc.devRef .tc main_v29) = norm (F := Ideal) (m ((c.tc : Thread nD τ).loc main_arg1)) := pre0_norm (W0 m ρ c)
theorem w3_arg0 : W3 m ρ c (Proc.devRef .tc main_arg0) = m ((c.tc : Thread nD τ).loc main_arg0) := by hstep; hstep; hstep; rfl
theorem w3_arg2 : W3 m ρ c (Proc.devRef .tc main_arg2) = m ((c.tc : Thread nD τ).loc main_arg2) := by hstep; hstep; hstep; rfl

/-! ## After the first pallas_call -/

theorem w4_src : W4 m ρ c (Proc.devRef .tc main_v3) = src (m ((c.tc : Thread nD τ).loc main_arg1)) := by r4; exact w3_src m ρ c
theorem w4_dst : W4 m ρ c (Proc.devRef .tc main_v6) = dst (m ((c.tc : Thread nD τ).loc main_arg1)) := by r4; exact w3_dst m ρ c
theorem w4_norm : W4 m ρ c (Proc.devRef .tc main_v29) = norm (F := Ideal) (m ((c.tc : Thread nD τ).loc main_arg1)) := by r4; exact w3_norm m ρ c
theorem w4_p1 : W4 m ρ c (Proc.devRef .tc main_v30) = p1 m c := by
  refine (W4_arr m ρ c 2).trans ((final0 (V3 m ρ) c).trans ?_)
  show lin0 (F := Ideal) (W3 m ρ c (Proc.devRef .tc main_arg0)) (W3 m ρ c (Proc.devRef .tc main_arg2)) = _
  rw [w3_arg0, w3_arg2]

/-! ## At the second pallas_call's entry -/

theorem w6_a1 (hpre : Cert.Pre_KernelIdeal m) : W6 m ρ c (Proc.devRef .tc main_v37) = a1 m c := by
  refine (agg1 (W4 m ρ c) (by rw [w4_src]; exact src_inRange m hpre c)).trans ?_
  rw [w4_dst, w4_p1, w4_src, w4_norm]
  rfl
theorem w6_src : W6 m ρ c (Proc.devRef .tc main_v3) = src (m ((c.tc : Thread nD τ).loc main_arg1)) := by hstep; hstep; exact w4_src m ρ c
theorem w6_dst : W6 m ρ c (Proc.devRef .tc main_v6) = dst (m ((c.tc : Thread nD τ).loc main_arg1)) := by hstep; hstep; exact w4_dst m ρ c
theorem w6_norm : W6 m ρ c (Proc.devRef .tc main_v29) = norm (F := Ideal) (m ((c.tc : Thread nD τ).loc main_arg1)) := by hstep; hstep; exact w4_norm m ρ c
theorem w6_arg3 : W6 m ρ c (Proc.devRef .tc main_arg3) = m ((c.tc : Thread nD τ).loc main_arg3) := by hstep; hstep; r4; hstep; hstep; hstep; rfl
theorem w6_arg4 : W6 m ρ c (Proc.devRef .tc main_arg4) = m ((c.tc : Thread nD τ).loc main_arg4) := by hstep; hstep; r4; hstep; hstep; hstep; rfl

/-! ## After the second pallas_call -/

theorem w7_src : W7 m ρ c (Proc.devRef .tc main_v3) = src (m ((c.tc : Thread nD τ).loc main_arg1)) := by r7; exact w6_src m ρ c
theorem w7_dst : W7 m ρ c (Proc.devRef .tc main_v6) = dst (m ((c.tc : Thread nD τ).loc main_arg1)) := by r7; exact w6_dst m ρ c
theorem w7_norm : W7 m ρ c (Proc.devRef .tc main_v29) = norm (F := Ideal) (m ((c.tc : Thread nD τ).loc main_arg1)) := by r7; exact w6_norm m ρ c
theorem w7_p2 (hpre : Cert.Pre_KernelIdeal m) : W7 m ρ c (Proc.devRef .tc main_v38) = p2 m c := by
  refine (W7_arr m ρ c 3).trans ((final1 (V6 m ρ) c).trans ?_)
  show lin (F := Ideal) (W6 m ρ c (Proc.devRef .tc main_v37)) (W6 m ρ c (Proc.devRef .tc main_arg3)) (W6 m ρ c (Proc.devRef .tc main_arg4)) = _
  rw [w6_a1 m ρ c hpre, w6_arg3, w6_arg4]

/-! ## At the third pallas_call's entry -/

theorem w9_a2 (hpre : Cert.Pre_KernelIdeal m) : W9 m ρ c (Proc.devRef .tc main_v45) = a2 m c := by
  refine (agg2 (W7 m ρ c) (by rw [w7_src]; exact src_inRange m hpre c)).trans ?_
  rw [w7_dst, w7_p2 m ρ c hpre, w7_src, w7_norm]
  rfl
theorem w9_src : W9 m ρ c (Proc.devRef .tc main_v3) = src (m ((c.tc : Thread nD τ).loc main_arg1)) := by hstep; hstep; exact w7_src m ρ c
theorem w9_dst : W9 m ρ c (Proc.devRef .tc main_v6) = dst (m ((c.tc : Thread nD τ).loc main_arg1)) := by hstep; hstep; exact w7_dst m ρ c
theorem w9_norm : W9 m ρ c (Proc.devRef .tc main_v29) = norm (F := Ideal) (m ((c.tc : Thread nD τ).loc main_arg1)) := by hstep; hstep; exact w7_norm m ρ c
theorem w9_arg5 : W9 m ρ c (Proc.devRef .tc main_arg5) = m ((c.tc : Thread nD τ).loc main_arg5) := by hstep; hstep; r7; hstep; hstep; r4; hstep; hstep; hstep; rfl
theorem w9_arg6 : W9 m ρ c (Proc.devRef .tc main_arg6) = m ((c.tc : Thread nD τ).loc main_arg6) := by hstep; hstep; r7; hstep; hstep; r4; hstep; hstep; hstep; rfl

/-! ## After the third pallas_call -/

theorem w10_src : W10 m ρ c (Proc.devRef .tc main_v3) = src (m ((c.tc : Thread nD τ).loc main_arg1)) := by r10; exact w9_src m ρ c
theorem w10_dst : W10 m ρ c (Proc.devRef .tc main_v6) = dst (m ((c.tc : Thread nD τ).loc main_arg1)) := by r10; exact w9_dst m ρ c
theorem w10_norm : W10 m ρ c (Proc.devRef .tc main_v29) = norm (F := Ideal) (m ((c.tc : Thread nD τ).loc main_arg1)) := by r10; exact w9_norm m ρ c
theorem w10_p3 (hpre : Cert.Pre_KernelIdeal m) : W10 m ρ c (Proc.devRef .tc main_v46) = p3 m c := by
  refine (W10_arr m ρ c 3).trans ((final2 (V9 m ρ) c).trans ?_)
  show lin (F := Ideal) (W9 m ρ c (Proc.devRef .tc main_v45)) (W9 m ρ c (Proc.devRef .tc main_arg5)) (W9 m ρ c (Proc.devRef .tc main_arg6)) = _
  rw [w9_a2 m ρ c hpre, w9_arg5, w9_arg6]

/-! ## At the last pallas_call's entry -/

theorem w12_a3 (hpre : Cert.Pre_KernelIdeal m) : W12 m ρ c (Proc.devRef .tc main_v53) = a3 m c := by
  refine (agg3 (W10 m ρ c) (by rw [w10_src]; exact src_inRange m hpre c)).trans ?_
  rw [w10_dst, w10_p3 m ρ c hpre, w10_src, w10_norm]
  rfl
theorem w11_arg8 : W11 m ρ c (Proc.devRef .tc main_arg8) = m ((c.tc : Thread nD τ).loc main_arg8) := by hstep; r10; hstep; hstep; r7; hstep; hstep; r4; hstep; hstep; hstep; rfl
theorem w11_arg9 : W11 m ρ c (Proc.devRef .tc main_arg9) = m ((c.tc : Thread nD τ).loc main_arg9) := by hstep; r10; hstep; hstep; r7; hstep; hstep; r4; hstep; hstep; hstep; rfl
theorem w12_arg7 : W12 m ρ c (Proc.devRef .tc main_arg7) = m ((c.tc : Thread nD τ).loc main_arg7) := by hstep; hstep; r10; hstep; hstep; r7; hstep; hstep; r4; hstep; hstep; hstep; rfl
theorem w12_wpad : W12 m ρ c (Proc.devRef .tc main_v57) = wpad (F := Ideal) (m ((c.tc : Thread nD τ).loc main_arg8)) := by
  refine (pad_w (W11 m ρ c)).trans ?_
  rw [w11_arg8]
theorem w12_bpad : W12 m ρ c (Proc.devRef .tc main_v61) = bpad (F := Ideal) (m ((c.tc : Thread nD τ).loc main_arg9)) := by
  refine (pad_b (W11 m ρ c)).trans ?_
  rw [w11_arg9]

/-! ## After the last pallas_call, and the result -/

theorem w13_head (hpre : Cert.Pre_KernelIdeal m) :
    W13 m ρ c (Proc.devRef .tc main_v62) = head128 (a3 m c) (m ((c.tc : Thread nD τ).loc main_arg7)) (wpad (F := Ideal) (m ((c.tc : Thread nD τ).loc main_arg8))) (bpad (F := Ideal) (m ((c.tc : Thread nD τ).loc main_arg9))) := by
  refine (W13_arr m ρ c 4).trans ((final3 (V12 m ρ) c).trans ?_)
  show head128 (W12 m ρ c (Proc.devRef .tc main_v53)) (W12 m ρ c (Proc.devRef .tc main_arg7)) (W12 m ρ c (Proc.devRef .tc main_v57)) (W12 m ρ c (Proc.devRef .tc main_v61)) = _
  rw [w12_a3 m ρ c hpre, w12_arg7, w12_wpad, w12_bpad]

/-- The result buffer at the last boundary is the network of the ten arguments. -/
theorem kernel_value (hpre : Cert.Pre_KernelIdeal m) :
    W14 m ρ c (Proc.devRef .tc main_v64)
      = result (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (tail_v64 (W13 m ρ c)).trans ?_
  rw [w13_head m ρ c hpre]
  exact tail_eq _ _ _ _

end Cert.GNN

end
-- ==== Proof.RefSide.lean ====
/-
  The reference program's result is the network `Cert.GNN.result` of its argument arrays: its run's composed term,
  read operation by operation, is that definition unfolded.
-/
import proofs.«419092_j35880156790903_2_alg».proof.Proof.RefRun
import proofs.«419092_j35880156790903_2_alg».proof.Proof.Spec

noncomputable section

namespace Cert.GNN

open Idealize.ShloMosaic Idealize.SL.Sem Cert.ReferenceIdeal

variable {F : FTy → Type} [FloatOps F]

set_option maxRecDepth 8192 in
/-- The composed term of the reference's run is the network of the launch contents of its ten arguments. -/
theorem ref_result (m : (ℓ : Loc nD τ sig) → Buf (Elt F) ℓ) (c : Dev nD) :
    Cert.ReferenceIdeal.ValueP.res_main_v87 (F := F) m c
      = result (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.ValueP.res_main_v87 result head agg lin lin0 bias norm dinv deg wrap src dst
  rfl

end Cert.GNN

end
-- ==== Proof.lean ====
/-
  The certificate of a three-layer graph convolution network (self loops, symmetric degree normalisation, a linear
  head) computed by four pallas_calls with the irregular gather / scatter-add between them on the host, against its
  plain jnp reference, over the extended reals.

  Both programs compute ONE function of their ten arguments, `Cert.GNN.result` (Proof/Spec.lean): the kernel's
  projections `x · W1`, `relu(a + b) · W` and its 128-lane head, read block by block off the pallas_calls' runs, are the
  reference's `dot_general`s index by index (a matmul into a zero accumulator and a `dot_general` are the same sum; a
  change of float format is the identity over the extended reals); the host operations between them are the
  reference's own, except that the kernel's row gather fills out-of-range rows with a NaN pattern where the
  reference's clamps — under the precondition (every source index names a node) the fill is never chosen. No
  algebraic law beyond reindexing a finite sum is used, so finiteness of the float inputs plays no part in the value.
  The three frames are the generated ones; the ideal pass rewrote nothing, so `preserves` is `True`.
-/
import proofs.«419092_j35880156790903_2_alg».proof.Defs
import proofs.«419092_j35880156790903_2_alg».proof.Proof.Gen.Kernel
import proofs.«419092_j35880156790903_2_alg».proof.Proof.Gen.Kernel.Skeleton
import proofs.«419092_j35880156790903_2_alg».proof.Proof.Gen.Kernel.Launch
import proofs.«419092_j35880156790903_2_alg».proof.Proof.Gen.Kernel.Points
import proofs.«419092_j35880156790903_2_alg».proof.Proof.Gen.Kernel.Frame
import proofs.«419092_j35880156790903_2_alg».proof.Proof.Gen.KernelIdeal
import proofs.«419092_j35880156790903_2_alg».proof.Proof.Gen.KernelIdeal.Skeleton
import proofs.«419092_j35880156790903_2_alg».proof.Proof.Gen.KernelIdeal.Launch
import proofs.«419092_j35880156790903_2_alg».proof.Proof.Gen.KernelIdeal.Points
import proofs.«419092_j35880156790903_2_alg».proof.Proof.Gen.KernelIdeal.Frame
import proofs.«419092_j35880156790903_2_alg».proof.Proof.Gen.ReferenceIdeal
import proofs.«419092_j35880156790903_2_alg».proof.Proof.RefRun
import proofs.«419092_j35880156790903_2_alg».proof.Proof.Gen.Pre_finite_inputs
import proofs.«419092_j35880156790903_2_alg».proof.Proof.KernelRun
import proofs.«419092_j35880156790903_2_alg».proof.Proof.KernelValue
import proofs.«419092_j35880156790903_2_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the network of the (agreeing) arguments in their result buffers. -/
theorem algebraic : Cert.algebraic_KernelIdeal_ReferenceIdeal := by
  intro m ρ m' ρ' hpre hagree
  refine ⟨fun c => Cert.GNN.result (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.GNN.kernel_value m ρ c hpre), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9⟩ := hagree c
    rw [Cert.GNN.ref_result, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
